-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32 : Shape := ⟨2, ![8192, 32]⟩
abbrev S8192 : Shape := ⟨1, ![8192]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S256x40960 : S_.BroadcastsInDim S256x40960 (![] : Fin 0 → Fin S256x40960.rank)
  reducesTo_S256x40960_S_d0_1 : S256x40960.ReducesTo [0, 1] S_
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S1x32 .f32) (main_arg10 : FVec F S1 .f32) (main_v33 : IVec S_ 1) : IVec S_ 1 :=
  let main_v34 : FVec F S1x32 .f32 := Host.absf main_arg9
  let main_cst_12 : FVec F S_ .f32 := constant S_ .f32 0x7F800000#32
  let main_v35 : FVec F S1x32 .f32 := broadcastInDim S1x32 ![] bcast_S_S1x32 main_cst_12
  let main_v36 : IVec S1x32 1 := cmpf .olt main_v34 main_v35
  let main_c_13 : IVec S_ 1 := constantI S_ 1 1#1
  let main_v37 : IVec S_ 1 := (fun x v => Host.reduce IntOp.andi x v reducesTo_S1x32_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S32 .f32) (main_arg7 : FVec F S32x32 .f32) (main_arg8 : FVec F S32 .f32) (main_arg9 : FVec F S1x32 .f32) (main_arg10 : FVec F S1 .f32) (main_v13 : IVec S_ 1) (main_v16 : IVec S32x512 1) : IVec S_ 1 :=
  let main_c_5 : IVec S_ 1 := constantI S_ 1 1#1
  let main_v17 : IVec S_ 1 := (fun x v => Host.reduce IntOp.andi x v reducesTo_S32x512_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_v33

def fn {F : FTy → Type} [FloatOps F] (main_arg0 : IVec S8192x32 32) (main_arg1 : IVec S8192x32 32) (main_arg2 : FVec F S8192 .f32) (main_arg3 : FVec F S256x40960 .f32) (main_arg4 : FVec F S256 .f32) (main_arg5 : FVec F S32x512 .f32) (main_arg6 : FVec F S32 .f32) (main_arg7 : FVec F S32x32 .f32) (main_arg8 : FVec F S32 .f32) (main_arg9 : FVec F S1x32 .f32) (main_arg10 : FVec F S1 .f32) : IVec S_ 1 :=
  let main_v0 : FVec F S8192 .f32 := Host.absf main_arg2
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S256x40960 .f32 := Host.absf main_arg3
  let main_cst_0 : FVec F S_ .f32 := constant S_ .f32 0x7F800000#32
  let main_v5 : FVec F S256x40960 .f32 := broadcastInDim S256x40960 ![] bcast_S_S256x40960 main_cst_0
  let main_v6 : IVec S256x40960 1 := cmpf .olt main_v4 main_v5
  let main_c_1 : IVec S_ 1 := constantI S_ 1 1#1
  let main_v7 : IVec S_ 1 := (fun x v => Host.reduce IntOp.andi x v reducesTo_S256x40960_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S32x512 .f32 := Host.absf main_arg5
  let main_cst_4 : FVec F S_ .f32 := constant S_ .f32 0x7F800000#32
  let main_v15 : FVec F S32x512 .f32 := broadcastInDim S32x512 ![] bcast_S_S32x512 main_cst_4
  let main_v16 : IVec S32x512 1 := cmpf .olt main_v14 main_v15
  fn_part1 (F := F) main_arg6 main_arg7 main_arg8 main_arg9 main_arg10 main_v13 main_v16
-- ==== Kernel.lean ====
abbrev S8192x32 : Shape := ⟨2, ![8192, 32]⟩
abbrev S8192 : Shape := ⟨1, ![8192]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩
abbrev S40960x256 : Shape := ⟨2, ![40960, 256]⟩
abbrev S8192x1 : Shape := ⟨2, ![8192, 1]⟩
abbrev S256x32 : Shape := ⟨2, ![256, 32]⟩
abbrev S256x1 : Shape := ⟨2, ![256, 1]⟩
abbrev S512x256 : Shape := ⟨2, ![512, 256]⟩
abbrev S512x32 : Shape := ⟨2, ![512, 32]⟩
abbrev S1x4096 : Shape := ⟨2, ![1, 4096]⟩
abbrev S4096x256 : Shape := ⟨2, ![4096, 256]⟩
abbrev S512x4096 : Shape := ⟨2, ![512, 4096]⟩
abbrev S512x1 : Shape := ⟨2, ![512, 1]⟩
abbrev S1x256 : Shape := ⟨2, ![1, 256]⟩
abbrev S256x256 : Shape := ⟨2, ![256, 256]⟩
abbrev S256x512 : Shape := ⟨2, ![256, 512]⟩
abbrev S1x1 : Shape := ⟨2, ![1, 1]⟩
abbrev S32x1 : Shape := ⟨2, ![32, 1]⟩

abbrev nBuf : Space → Nat
  | .hbm => 32
  | .vmem => 17
  | .smem => 0
  | _ => 0

abbrev bufTy : (tb : Table) → Fin (tcTables nBuf tb) → BufTy
  | .hbm, ⟨0, _⟩ => ⟨S8192x32, .i32⟩
  | .hbm, ⟨1, _⟩ => ⟨S8192x32, .i32⟩
  | .hbm, ⟨2, _⟩ => ⟨S8192, .f32⟩
  | .hbm, ⟨3, _⟩ => ⟨S256x40960, .f32⟩
  | .hbm, ⟨4, _⟩ => ⟨S256, .f32⟩
  | .hbm, ⟨5, _⟩ => ⟨S32x512, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S1x32, .f32⟩
  | .hbm, ⟨10, _⟩ => ⟨S1, .f32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S8192x32, .i32⟩
  | .hbm, ⟨15, _⟩ => ⟨S8192x32, .i32⟩
  | .hbm, ⟨16, _⟩ => ⟨S_, .i32⟩
  | .hbm, ⟨17, _⟩ => ⟨S8192x32, .i32⟩
  | .hbm, ⟨18, _⟩ => ⟨S8192x32, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S8192x32, .i32⟩
  | .hbm, ⟨23, _⟩ => ⟨S8192x32, .i32⟩
  | .hbm, ⟨24, _⟩ => ⟨S_, .i32⟩
  | .hbm, ⟨25, _⟩ => ⟨S8192x32, .i32⟩
  | .hbm, ⟨26, _⟩ => ⟨S8192x32, .i32⟩
  | .hbm, ⟨27, _⟩ => ⟨S40960x256, .f32⟩
  | .hbm, ⟨28, _⟩ => ⟨S40960x256, .bf16⟩
  | .hbm, ⟨29, _⟩ => ⟨S8192x1, .f32⟩
  | .hbm, ⟨30, _⟩ => ⟨S8192x1, .f32⟩
  | .hbm, ⟨31, _⟩ => ⟨S8192, .f32⟩
  | .local _ .vmem, ⟨0, _⟩ => ⟨S256x32, .i32⟩
  | .local _ .vmem, ⟨1, _⟩ => ⟨S256x32, .i32⟩
  | .local _ .vmem, ⟨2, _⟩ => ⟨S256x32, .i32⟩
  | .local _ .vmem, ⟨3, _⟩ => ⟨S256x32, .i32⟩
  | .local _ .vmem, ⟨4, _⟩ => ⟨S256x1, .f32⟩
  | .local _ .vmem, ⟨5, _⟩ => ⟨S256x1, .f32⟩
  | .local _ .vmem, ⟨6, _⟩ => ⟨S40960x256, .bf16⟩
  | .local _ .vmem, ⟨7, _⟩ => ⟨S256, .f32⟩
  | .local _ .vmem, ⟨8, _⟩ => ⟨S32x512, .f32⟩
  | .local _ .vmem, ⟨9, _⟩ => ⟨S32, .f32⟩
  | .local _ .vmem, ⟨10, _⟩ => ⟨S32x32, .f32⟩
  | .local _ .vmem, ⟨11, _⟩ => ⟨S32, .f32⟩
  | .local _ .vmem, ⟨12, _⟩ => ⟨S1x32, .f32⟩
  | .local _ .vmem, ⟨13, _⟩ => ⟨S1, .f32⟩
  | .local _ .vmem, ⟨14, _⟩ => ⟨S256x1, .f32⟩
  | .local _ .vmem, ⟨15, _⟩ => ⟨S256x1, .f32⟩
  | .local _ .vmem, ⟨16, _⟩ => ⟨S512x256, .f32⟩
  | _, _ => ⟨S8192x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v0 : Ref sig .tc := ⟨.hbm, 18, rfl⟩
abbrev main_c_1 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c10_i32 : BitVec 32 := 10#32
  let v9 : BitVec 32 := Scalar.addi c0_i32 c10_i32
  let c1_i32 : BitVec 32 := 1#32
  ⟨c0_i32, v9, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c4096_i32 : BitVec 32 := 4096#32
  let v71 : BitVec 32 := Scalar.muli arg14 c4096_i32
  v71
def k0_off1 (k0_t1 : Fin k0_t1_loop.trips) : Fin 2 → Nat :=
  let c0_i32 : BitVec 32 := 0#32
  let c1_i32 : BitVec 32 := 1#32
  let arg14 : BitVec 32 := Scf.iv c0_i32 c1_i32 k0_t1
  let c4096_i32 : BitVec 32 := 4096#32
  let v71 : BitVec 32 := Scalar.muli arg14 c4096_i32
  let v72 : BitVec 32 := v71
  let v76 : Index := Scalar.indexCast v72
  let c0_33 : Index := 0#32
  ![v76.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S40960x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S_S8192x32 : S_.BroadcastsInDim S8192x32 (![] : Fin 0 → Fin S8192x32.rank)
  transposes_S256x40960_S40960x256_1_0 : S256x40960.Transposes [1, 0] S40960x256
  bitsLt_bf16_f32 : FTy.bits .bf16 < FTy.bits .f32
  bcast_S8192_S8192x1_0 : S8192.BroadcastsInDim S8192x1 (![0] : Fin 1 → Fin S8192x1.rank)
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x32_S256x32_0_0 : ∀ a, (![0, 0] : Fin 2 → Nat) a + S256x32.size a ≤ S256x32.size a
  h_S256x32 : 0 < S256x32.numel
  shapeCasts_S256x32_S256x32 : S256x32.ShapeCasts S256x32
  concatenates_S256x32_S256x32_S512x32_d0 : Shape.Concatenates [S256x32, S256x32] S512x32 0
  iota_S1x4096_d1_w32 : S1x4096.Iotas .tc 32 [1]
  h_S4096x256 : 0 < S4096x256.numel
  shapeCasts_S4096x256_S4096x256 : S4096x256.ShapeCasts S4096x256
  slices_S512x32_o0_0_S512x1 : S512x32.Slices ![0, 0] S512x1
  broadcasts_S512x1_S512x4096 : S512x1.Broadcasts S512x4096
  broadcasts_S1x4096_S512x4096 : S1x4096.Broadcasts S512x4096
  natLt_1_32 : 1 < 32
  slices_S512x32_o0_1_S512x1 : S512x32.Slices ![0, 1] S512x1
  slices_S512x32_o0_2_S512x1 : S512x32.Slices ![0, 2] S512x1
  slices_S512x32_o0_3_S512x1 : S512x32.Slices ![0, 3] S512x1
  slices_S512x32_o0_4_S512x1 : S512x32.Slices ![0, 4] S512x1
  slices_S512x32_o0_5_S512x1 : S512x32.Slices ![0, 5] S512x1
  slices_S512x32_o0_6_S512x1 : S512x32.Slices ![0, 6] S512x1
  slices_S512x32_o0_7_S512x1 : S512x32.Slices ![0, 7] S512x1
  slices_S512x32_o0_8_S512x1 : S512x32.Slices ![0, 8] S512x1
  slices_S512x32_o0_9_S512x1 : S512x32.Slices ![0, 9] S512x1
  slices_S512x32_o0_10_S512x1 : S512x32.Slices ![0, 10] S512x1
  slices_S512x32_o0_11_S512x1 : S512x32.Slices ![0, 11] S512x1
  slices_S512x32_o0_12_S512x1 : S512x32.Slices ![0, 12] S512x1
  slices_S512x32_o0_13_S512x1 : S512x32.Slices ![0, 13] S512x1
  slices_S512x32_o0_14_S512x1 : S512x32.Slices ![0, 14] S512x1
  slices_S512x32_o0_15_S512x1 : S512x32.Slices ![0, 15] S512x1
  slices_S512x32_o0_16_S512x1 : S512x32.Slices ![0, 16] S512x1
  slices_S512x32_o0_17_S512x1 : S512x32.Slices ![0, 17] S512x1
  slices_S512x32_o0_18_S512x1 : S512x32.Slices ![0, 18] S512x1
  slices_S512x32_o0_19_S512x1 : S512x32.Slices ![0, 19] S512x1
  slices_S512x32_o0_20_S512x1 : S512x32.Slices ![0, 20] S512x1
  slices_S512x32_o0_21_S512x1 : S512x32.Slices ![0, 21] S512x1
  slices_S512x32_o0_22_S512x1 : S512x32.Slices ![0, 22] S512x1
  slices_S512x32_o0_23_S512x1 : S512x32.Slices ![0, 23] S512x1
  slices_S512x32_o0_24_S512x1 : S512x32.Slices ![0, 24] S512x1
  slices_S512x32_o0_25_S512x1 : S512x32.Slices ![0, 25] S512x1
  slices_S512x32_o0_26_S512x1 : S512x32.Slices ![0, 26] S512x1
  slices_S512x32_o0_27_S512x1 : S512x32.Slices ![0, 27] S512x1
  slices_S512x32_o0_28_S512x1 : S512x32.Slices ![0, 28] S512x1
  slices_S512x32_o0_29_S512x1 : S512x32.Slices ![0, 29] S512x1
  slices_S512x32_o0_30_S512x1 : S512x32.Slices ![0, 30] S512x1
  slices_S512x32_o0_31_S512x1 : S512x32.Slices ![0, 31] S512x1
  inb_S256_S256_0 : ∀ a, (![0] : Fin 1 → Nat) a + S256.size a ≤ S256.size a
  h_S256 : 0 < S256.numel
  shapeCasts_S256_S1x256 : S256.ShapeCasts S1x256
  slices_S512x256_o0_0_S256x256 : S512x256.Slices ![0, 0] S256x256
  broadcasts_S1x256_S256x256 : S1x256.Broadcasts S256x256
  slices_S512x256_o256_0_S256x256 : S512x256.Slices ![256, 0] S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x256 : S256x1.Broadcasts S256x256
  concatenates_S256x256_S256x256_S256x512_d1 : Shape.Concatenates [S256x256, S256x256] S256x512 1
  inb_S32x512_S32x512_0_0 : ∀ a, (![0, 0] : Fin 2 → Nat) a + S32x512.size a ≤ S32x512.size a
  h_S32x512 : 0 < S32x512.numel
  inb_S32_S32_0 : ∀ a, (![0] : Fin 1 → Nat) a + S32.size a ≤ S32.size a
  h_S32 : 0 < S32.numel
  shapeCasts_S32_S1x32 : S32.ShapeCasts S1x32
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  inb_S1_S1_0 : ∀ a, (![0] : Fin 1 → Nat) a + S1.size a ≤ S1.size a
  h_S1 : 0 < S1.numel
  shapeCasts_S1_S1x1 : S1.ShapeCasts S1x1
  transposes_S32x512_p1_0_S512x32 : S32x512.Transposes [1, 0] S512x32
  broadcasts_S1x32_S256x32 : S1x32.Broadcasts S256x32
  transposes_S32x32_p1_0_S32x32 : S32x32.Transposes [1, 0] S32x32
  transposes_S1x32_p1_0_S32x1 : S1x32.Transposes [1, 0] S32x1
  broadcasts_S1x1_S256x1 : S1x1.Broadcasts S256x1
  shapeCasts_S8192x1_S8192 : S8192x1.ShapeCasts S8192
  dot_S512x4096_S4096x256_S512x256_1_0_0_1_n_n_wf : DotDims.WF S512x4096 S4096x256 S512x256 [1] [0] [0] [1] [] []
  dot_S256x512_S512x32_S256x32_1_0_0_1_n_n_wf : DotDims.WF S256x512 S512x32 S256x32 [1] [0] [0] [1] [] []
  dot_S256x32_S32x32_S256x32_1_0_0_1_n_n_wf : DotDims.WF S256x32 S32x32 S256x32 [1] [0] [0] [1] [] []
  dot_S256x32_S32x1_S256x1_1_0_0_1_n_n_wf : DotDims.WF S256x32 S32x1 S256x1 [1] [0] [0] [1] [] []
  hrank0 : 0 < grid0.rank
  k0_t1_ok : k0_t1_loop.OK
  k0_mult1_dvd : ∀ k0_t1 : Fin k0_t1_loop.trips, 4096 ∣ (k0_mult1 k0_t1).toNat
  k0_off1_inb : ∀ k0_t1 : Fin k0_t1_loop.trips, ∀ a, (k0_off1 k0_t1) a + S4096x256.size a ≤ S40960x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x32.size a ≤ S8192x32.size a
  hwx0_0 : ∀ i : grid0.Coords, EltTy.bits .i32 = 32 ∨ (Rect.block (s := S8192x32) S256x32.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x32.size a ≤ S8192x32.size a
  hwx0_1 : ∀ i : grid0.Coords, EltTy.bits .i32 = 32 ∨ (Rect.block (s := S8192x32) S256x32.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S40960x256.size a ≤ S40960x256.size a
  hwx0_3 : ∀ i : grid0.Coords, EltTy.bits .bf16 = 32 ∨ (Rect.block (s := S40960x256) S40960x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x512.size a ≤ S32x512.size a
  hwx0_5 : ∀ i : grid0.Coords, EltTy.bits .f32 = 32 ∨ (Rect.block (s := S32x512) S32x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S32.size a ≤ S32.size a
  hwx0_8 : ∀ i : grid0.Coords, EltTy.bits .f32 = 32 ∨ (Rect.block (s := S32) S32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1.size a ≤ S8192x1.size a
  hwx0_11 : ∀ i : grid0.Coords, EltTy.bits .f32 = 32 ∨ (Rect.block (s := S8192x1) S256x1.size (cc0_transform_11 i) (hinb0_11 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S256x512_S512x32_S256x32_1_0_0_1_n_n : DotDims S256x512 S512x32 S256x32 where
  lhsContracting := [1]
  rhsContracting := [0]
  lhsNonContracting := [0]
  rhsNonContracting := [1]
  lhsBatch := []
  rhsBatch := []
  wf := dot_S256x512_S512x32_S256x32_1_0_0_1_n_n_wf
def dot_S256x32_S32x32_S256x32_1_0_0_1_n_n : DotDims S256x32 S32x32 S256x32 where
  lhsContracting := [1]
  rhsContracting := [0]
  lhsNonContracting := [0]
  rhsNonContracting := [1]
  lhsBatch := []
  rhsBatch := []
  wf := dot_S256x32_S32x32_S256x32_1_0_0_1_n_n_wf
def dot_S256x32_S32x1_S256x1_1_0_0_1_n_n : DotDims S256x32 S32x1 S256x1 where
  lhsContracting := [1]
  rhsContracting := [0]
  lhsNonContracting := [0]
  rhsNonContracting := [1]
  lhsBatch := []
  rhsBatch := []
  wf := dot_S256x32_S32x1_S256x1_1_0_0_1_n_n_wf

abbrev win0_0 : Pipeline.Window sig grid0 :=
  Pipeline.Window.ofSpec (Memref.whole main_v0) S256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S40960x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S256x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x32 : Shape := ⟨2, ![8192, 32]⟩
abbrev S8192 : Shape := ⟨1, ![8192]⟩
abbrev S256x40960 : Shape := ⟨2, ![256, 40960]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S40960x256 : Shape := ⟨2, ![40960, 256]⟩
abbrev S_ : Shape := ⟨0, ![]⟩
abbrev S8192x32x1 : Shape := ⟨3, ![8192, 32, 1]⟩
abbrev S8192x32x256 : Shape := ⟨3, ![8192, 32, 256]⟩
abbrev S8192x256 : Shape := ⟨2, ![8192, 256]⟩
abbrev S1x256 : Shape := ⟨2, ![1, 256]⟩
abbrev S8192x1 : Shape := ⟨2, ![8192, 1]⟩
abbrev S8192x512 : Shape := ⟨2, ![8192, 512]⟩
abbrev S512x32 : Shape := ⟨2, ![512, 32]⟩
abbrev S32x1 : Shape := ⟨2, ![32, 1]⟩
abbrev S1x1 : Shape := ⟨2, ![1, 1]⟩

abbrev nBuf : Space → Nat
  | .hbm => 134
  | .vmem => 0
  | .smem => 0
  | _ => 0

abbrev hbmTy0_0 (i : Nat) : BufTy := match i % 128 with
  | 0 => ⟨S8192x32, .i32⟩
  | 1 => ⟨S8192x32, .i32⟩
  | 2 => ⟨S8192, .f32⟩
  | 3 => ⟨S256x40960, .f32⟩
  | 4 => ⟨S256, .f32⟩
  | 5 => ⟨S32x512, .f32⟩
  | 6 => ⟨S32, .f32⟩
  | 7 => ⟨S32x32, .f32⟩
  | 8 => ⟨S32, .f32⟩
  | 9 => ⟨S1x32, .f32⟩
  | 10 => ⟨S1, .f32⟩
  | 11 => ⟨S40960x256, .f32⟩
  | 12 => ⟨S_, .i32⟩
  | 13 => ⟨S8192x32, .i32⟩
  | 14 => ⟨S8192x32, .i1⟩
  | 15 => ⟨S_, .i32⟩
  | 16 => ⟨S_, .i32⟩
  | 17 => ⟨S_, .i32⟩
  | 18 => ⟨S8192x32, .i32⟩
  | 19 => ⟨S8192x32, .i32⟩
  | 20 => ⟨S_, .i32⟩
  | 21 => ⟨S8192x32, .i32⟩
  | 22 => ⟨S8192x32, .i32⟩
  | 23 => ⟨S_, .i32⟩
  | 24 => ⟨S8192x32, .i32⟩
  | 25 => ⟨S8192x32, .i1⟩
  | 26 => ⟨S_, .i32⟩
  | 27 => ⟨S8192x32, .i32⟩
  | 28 => ⟨S8192x32, .i32⟩
  | 29 => ⟨S8192x32, .i32⟩
  | 30 => ⟨S8192x32x1, .i32⟩
  | 31 => ⟨S8192x32x256, .f32⟩
  | 32 => ⟨S8192x32x1, .i1⟩
  | 33 => ⟨S8192x32x1, .f32⟩
  | 34 => ⟨S8192x32x256, .f32⟩
  | 35 => ⟨S8192x32x256, .f32⟩
  | 36 => ⟨S_, .f32⟩
  | 37 => ⟨S8192x256, .f32⟩
  | 38 => ⟨S1x256, .f32⟩
  | 39 => ⟨S8192x256, .f32⟩
  | 40 => ⟨S8192x256, .f32⟩
  | 41 => ⟨S_, .i32⟩
  | 42 => ⟨S8192x32, .i32⟩
  | 43 => ⟨S8192x32, .i1⟩
  | 44 => ⟨S_, .i32⟩
  | 45 => ⟨S_, .i32⟩
  | 46 => ⟨S_, .i32⟩
  | 47 => ⟨S8192x32, .i32⟩
  | 48 => ⟨S8192x32, .i32⟩
  | 49 => ⟨S_, .i32⟩
  | 50 => ⟨S8192x32, .i32⟩
  | 51 => ⟨S8192x32, .i32⟩
  | 52 => ⟨S_, .i32⟩
  | 53 => ⟨S8192x32, .i32⟩
  | 54 => ⟨S8192x32, .i1⟩
  | 55 => ⟨S_, .i32⟩
  | 56 => ⟨S8192x32, .i32⟩
  | 57 => ⟨S8192x32, .i32⟩
  | 58 => ⟨S8192x32, .i32⟩
  | 59 => ⟨S8192x32x1, .i32⟩
  | 60 => ⟨S8192x32x256, .f32⟩
  | 61 => ⟨S8192x32x1, .i1⟩
  | 62 => ⟨S8192x32x1, .f32⟩
  | 63 => ⟨S8192x32x256, .f32⟩
  | 64 => ⟨S8192x32x256, .f32⟩
  | 65 => ⟨S_, .f32⟩
  | 66 => ⟨S8192x256, .f32⟩
  | 67 => ⟨S1x256, .f32⟩
  | 68 => ⟨S8192x256, .f32⟩
  | 69 => ⟨S8192x256, .f32⟩
  | 70 => ⟨S_, .f32⟩
  | 71 => ⟨S_, .f32⟩
  | 72 => ⟨S_, .f32⟩
  | 73 => ⟨S8192x256, .f32⟩
  | 74 => ⟨S8192x256, .f32⟩
  | 75 => ⟨S_, .f32⟩
  | 76 => ⟨S8192x256, .f32⟩
  | 77 => ⟨S8192x256, .f32⟩
  | 78 => ⟨S_, .f32⟩
  | 79 => ⟨S_, .f32⟩
  | 80 => ⟨S_, .f32⟩
  | 81 => ⟨S8192x256, .f32⟩
  | 82 => ⟨S8192x256, .f32⟩
  | 83 => ⟨S_, .f32⟩
  | 84 => ⟨S8192x256, .f32⟩
  | 85 => ⟨S8192x256, .f32⟩
  | 86 => ⟨S8192x1, .f32⟩
  | 87 => ⟨S8192x256, .f32⟩
  | 88 => ⟨S8192x256, .f32⟩
  | 89 => ⟨S_, .f32⟩
  | 90 => ⟨S8192x1, .f32⟩
  | 91 => ⟨S8192x1, .f32⟩
  | 92 => ⟨S8192x256, .f32⟩
  | 93 => ⟨S8192x256, .f32⟩
  | 94 => ⟨S8192x256, .f32⟩
  | 95 => ⟨S8192x256, .f32⟩
  | 96 => ⟨S8192x256, .f32⟩
  | 97 => ⟨S_, .f32⟩
  | 98 => ⟨S8192x1, .f32⟩
  | 99 => ⟨S8192x1, .f32⟩
  | 100 => ⟨S8192x256, .f32⟩
  | 101 => ⟨S8192x256, .f32⟩
  | 102 => ⟨S8192x256, .f32⟩
  | 103 => ⟨S8192x512, .f32⟩
  | 104 => ⟨S512x32, .f32⟩
  | 105 => ⟨S8192x32, .f32⟩
  | 106 => ⟨S1x32, .f32⟩
  | 107 => ⟨S8192x32, .f32⟩
  | 108 => ⟨S8192x32, .f32⟩
  | 109 => ⟨S_, .f32⟩
  | 110 => ⟨S8192x32, .f32⟩
  | 111 => ⟨S8192x32, .f32⟩
  | 112 => ⟨S32x32, .f32⟩
  | 113 => ⟨S8192x32, .f32⟩
  | 114 => ⟨S1x32, .f32⟩
  | 115 => ⟨S8192x32, .f32⟩
  | 116 => ⟨S8192x32, .f32⟩
  | 117 => ⟨S_, .f32⟩
  | 118 => ⟨S8192x32, .f32⟩
  | 119 => ⟨S8192x32, .f32⟩
  | 120 => ⟨S32x1, .f32⟩
  | 121 => ⟨S8192x1, .f32⟩
  | 122 => ⟨S1x1, .f32⟩
  | 123 => ⟨S8192x1, .f32⟩
  | 124 => ⟨S8192x1, .f32⟩
  | 125 => ⟨S8192, .f32⟩
  | 126 => ⟨S8192, .f32⟩
  | 127 => ⟨S8192, .f32⟩
  | _ => ⟨S8192x32, .i32⟩

abbrev hbmTy0_1 (i : Nat) : BufTy := match i % 128 with
  | 0 => ⟨S_, .f32⟩
  | 1 => ⟨S8192, .f32⟩
  | 2 => ⟨S8192, .f32⟩
  | 3 => ⟨S_, .f32⟩
  | 4 => ⟨S8192, .f32⟩
  | 5 => ⟨S8192, .f32⟩
  | _ => ⟨S8192x32, .i32⟩

abbrev hbmTy (i : Nat) : BufTy := match i / 128 with
  | 0 => hbmTy0_0 i
  | 1 => hbmTy0_1 i
  | _ => ⟨S8192x32, .i32⟩

abbrev bufTy : (tb : Table) → Fin (tcTables nBuf tb) → BufTy
  | .hbm, ⟨i, _⟩ => hbmTy i
  | _, _ => ⟨S8192x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v3 : Ref sig .tc := ⟨.hbm, 22, rfl⟩
abbrev main_c_2 : Ref sig .tc := ⟨.hbm, 23, rfl⟩
abbrev main_v4 : Ref sig .tc := ⟨.hbm, 24, rfl⟩
abbrev main_v5 : Ref sig .tc := ⟨.hbm, 25, rfl⟩
abbrev main_c_3 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_c_6 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v21 : Ref sig .tc := ⟨.hbm, 51, rfl⟩
abbrev main_c_7 : Ref sig .tc := ⟨.hbm, 52, rfl⟩
abbrev main_v22 : Ref sig .tc := ⟨.hbm, 53, rfl⟩
abbrev main_v23 : Ref sig .tc := ⟨.hbm, 54, rfl⟩
abbrev main_c_8 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_9 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_10 : Ref sig .tc := ⟨.hbm, 70, rfl⟩
abbrev main_cst_11 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_v37 : Ref sig .tc := ⟨.hbm, 77, rfl⟩
abbrev main_cst_12 : Ref sig .tc := ⟨.hbm, 78, rfl⟩
abbrev main_cst_13 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_cst_14 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_cst_15 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_call4_cst : Ref sig .tc := ⟨.hbm, 109, rfl⟩
abbrev main_call4_v0 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_call5_cst : Ref sig .tc := ⟨.hbm, 117, rfl⟩
abbrev main_call5_v0 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_cst_16 : Ref sig .tc := ⟨.hbm, 128, rfl⟩
abbrev main_v75 : Ref sig .tc := ⟨.hbm, 129, rfl⟩
abbrev main_v76 : Ref sig .tc := ⟨.hbm, 130, rfl⟩
abbrev main_cst_17 : Ref sig .tc := ⟨.hbm, 131, rfl⟩
abbrev main_v77 : Ref sig .tc := ⟨.hbm, 132, rfl⟩
abbrev main_v78 : Ref sig .tc := ⟨.hbm, 133, rfl⟩

abbrev nD : Nat := 1
abbrev τ : Topo := Topo.v7x

variable {F : FTy → Type} [FloatOps F]

class Facts₀ : Prop where
  transposes_S256x40960_S40960x256_1_0 : S256x40960.Transposes [1, 0] S40960x256
  bcast_S_S8192x32 : S_.BroadcastsInDim S8192x32 (![] : Fin 0 → Fin S8192x32.rank)
  bcast_S8192x32_S8192x32x1_0_1 : S8192x32.BroadcastsInDim S8192x32x1 (![0, 1] : Fin 2 → Fin S8192x32x1.rank)
  bcast_S8192x32x1_S8192x32x256_0_1_2 : S8192x32x1.BroadcastsInDim S8192x32x256 (![0, 1, 2] : Fin 3 → Fin S8192x32x256.rank)
  reducesTo_S8192x32x256_S8192x256_d1 : S8192x32x256.ReducesTo [1] S8192x256
  h_S_ : 0 < S_.numel
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S_S8192x1 : S_.BroadcastsInDim S8192x1 (![] : Fin 0 → Fin S8192x1.rank)
  concatenates_S8192x256_S8192x256_S8192x512_d1 : Shape.Concatenates [S8192x256, S8192x256] S8192x512 1
  transposes_S32x512_S512x32_1_0 : S32x512.Transposes [1, 0] S512x32
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  bcast_S_S8192 : S_.BroadcastsInDim S8192 (![] : Fin 0 → Fin S8192.rank)
  gather_S40960x256_S8192x32x1_S8192x32x256_2_0_n_n_0_2_1256_wf : GatherDims.WF S40960x256 S8192x32x1 S8192x32x256 [2] [0] [] [0] [] 2 ![1, 256]
  dot_S8192x512_S512x32_S8192x32_1_0_0_1_n_n_wf : DotDims.WF S8192x512 S512x32 S8192x32 [1] [0] [0] [1] [] []
  dot_S8192x32_S32x32_S8192x32_1_0_0_1_n_n_wf : DotDims.WF S8192x32 S32x32 S8192x32 [1] [0] [0] [1] [] []
  dot_S8192x32_S32x1_S8192x1_1_0_0_1_n_n_wf : DotDims.WF S8192x32 S32x1 S8192x1 [1] [0] [0] [1] [] []

variable [Facts₀]

def gather_S40960x256_S8192x32x1_S8192x32x256_2_0_n_n_0_2_1256 : GatherDims S40960x256 S8192x32x1 S8192x32x256 where
  offsetDims := [2]
  collapsedSliceDims := [0]
  operandBatchingDims := []
  startIndicesBatchingDims := []
  startIndexMap := [0]
  indexVectorDim := 2
  sliceSizes := ![1, 256]
  wf := gather_S40960x256_S8192x32x1_S8192x32x256_2_0_n_n_0_2_1256_wf
def dot_S8192x512_S512x32_S8192x32_1_0_0_1_n_n : DotDims S8192x512 S512x32 S8192x32 where
  lhsContracting := [1]
  rhsContracting := [0]
  lhsNonContracting := [0]
  rhsNonContracting := [1]
  lhsBatch := []
  rhsBatch := []
  wf := dot_S8192x512_S512x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S8192x32_S32x1_S8192x1_1_0_0_1_n_n : DotDims S8192x32 S32x1 S8192x1 where
  lhsContracting := [1]
  rhsContracting := [0]
  lhsNonContracting := [0]
  rhsNonContracting := [1]
  lhsBatch := []
  rhsBatch := []
  wf := dot_S8192x32_S32x1_S8192x1_1_0_0_1_n_n_wf

class Facts : Prop extends Facts₀ where

variable [Facts]
-- ==== Proof.Payload.lean ====
/-
  The kernel body's arithmetic as two pure functions of the values it loads.

  `tripPay` is what one pass of the chunk loop stores into the 512 × 256 accumulator: the accumulator it found plus
  the product of the pass's 512 × 4096 match counts with the 4096 table rows of the pass.
  `tailPay` is what the body stores into the output block: the network applied to the final accumulator.
-/
import proofs.«407513_j18287970746445_3_alg».proof.Proof.Gen.KernelIdeal.Skeleton
import Idealize.ShloMosaic.Lib.ValueIdx

noncomputable section

namespace Cert.Nnue

open Idealize.ShloMosaic Cert.KernelIdeal Cert.KernelIdeal.Gen

variable {F : FTy → Type} [FloatOps F]

/-- Pass `k` of the chunk loop: the accumulator `s` it finds, plus the match counts of the 512 stacked feature
    lists (white rows `v4` over black rows `v6`) against the vocabulary entries `4096 k … 4096 k + 4095`, times the
    pass's 4096 table rows `wchunk`. -/
def tripPay (v4 v6 : Vec F S256x32 .i32) (wchunk : Vec F S4096x256 .bf16) (k : Fin k0_t1_loop.trips)
    (s : Vec F S512x256 .f32) : FVec F S512x256 .f32 :=
  k0_pay16 v4 v6 (k0_pay2 (0#32) (1#32) k) (k0_pay3 wchunk)
    (k0_pay11 (k0_pay15 v4 v6) (k0_pay2 (0#32) (1#32) k)
      (k0_pay9 (k0_pay15 v4 v6) (k0_pay2 (0#32) (1#32) k)
        (k0_pay6 (k0_pay15 v4 v6) (k0_pay2 (0#32) (1#32) k) (k0_pay4 (k0_pay15 v4 v6) (0#32) (1#32) k)
          (k0_pay5 (k0_pay15 v4 v6) (0#32) (1#32) k))
        (k0_pay7 (k0_pay15 v4 v6)) (k0_pay8 (k0_pay2 (0#32) (1#32) k)))
      (k0_pay10 (k0_pay15 v4 v6) (k0_pay2 (0#32) (1#32) k)))
    (k0_pay12 (k0_pay15 v4 v6)) (k0_pay13 (k0_pay2 (0#32) (1#32) k)) s

/-- The output block from the final accumulator `s`, the bias `x4`, the side to move `x2` and the network's
    parameters. -/
def tailPay (s : Vec F S512x256 .f32) (x2 : Vec F S256x1 .f32) (x4 : Vec F S256 .f32) (x5 : Vec F S32x512 .f32)
    (x6 : Vec F S32 .f32) (x7 : Vec F S32x32 .f32) (x8 : Vec F S32 .f32) (x9 : Vec F S1x32 .f32) (x10 : Vec F S1 .f32) :
    FVec F S256x1 .f32 :=
  k0_pay1 (k0_pay18 s x4) (k0_pay19 s x4) (k0_pay20 x2) (k0_pay21 s x4 x2) x5 x6 x7 x8 x9 x10

/-- The 512 feature lists the kernel stacks for one block of 256 positions: the white lists over the black lists. -/
def stacked (v4 v6 : Vec Ideal S256x32 .i32) (r : Fin 512) (f : Fin 32) : BitVec 32 :=
  if h : r.val < 256 then v4 (ValueIdx.ix2 ⟨r.val, h⟩ f) else v6 (ValueIdx.ix2 ⟨r.val - 256, by omega⟩ f)

end Cert.Nnue

end
-- ==== Proof.KernelBody.lean ====
/-
  What the kernel body leaves in its output block, as a pure function of the blocks it is given.

  The body zeroes a 512 × 256 accumulator, runs ten passes each of which adds to it the match counts of the 512
  stacked feature lists against 4096 vocabulary entries times the 4096 table rows of the pass, and stores the
  network's output computed from the final accumulator.  The accumulator after `k` passes is `accAt … k`; the
  output block is `tailPay` of the accumulator after all passes.
-/
import proofs.«407513_j18287970746445_3_alg».proof.Proof.Gen.KernelIdeal.Frame
import proofs.«407513_j18287970746445_3_alg».proof.Proof.Payload
import Idealize.ShloMosaic.Lib.Pipeline.Value

set_option maxRecDepth 16384

noncomputable section

namespace Cert.Nnue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

theorem zero2 : (![0, 0] : Fin 2 → Nat) = fun _ => 0 := funext fun a => by fin_cases a <;> rfl
theorem zero1 : (![0] : Fin 1 → Nat) = fun _ => 0 := funext fun a => by fin_cases a; rfl

/-- The 4096 table rows pass `k` loads: rows `4096 k … 4096 k + 4095` of the staged table. -/
def chunk (x3 : Vec F S40960x256 .bf16) (k : Fin k0_t1_loop.trips) : Vec F S4096x256 .bf16 :=
  View.ld x3 (Rect.unit (s := S40960x256) (k0_off1 k) S4096x256.size (k0_off1_inb k))

/-- The accumulator after `k` passes: zero, then one `tripPay` per pass. -/
def accAt (v4 v6 : Vec F S256x32 .i32) (x3 : Vec F S40960x256 .bf16) : ℕ → Vec F S512x256 .f32
  | 0 => k0_pay14
  | k + 1 => if h : k < k0_t1_loop.trips then tripPay v4 v6 (chunk x3 ⟨k, h⟩) ⟨k, h⟩ (accAt v4 v6 x3 k)
      else accAt v4 v6 x3 k

/-- One pass stores one piece: the whole accumulator, at `tripPay` of what the pass loads. -/
theorem tripL_eq (𝒱 : Variants) (bd : Option 𝒱.V) (c : Dev nD) (i : grid0.Coords) (arg1 : Memref sig .tc .vmem S256x32 .i32) (harg1 : arg1.IsWhole) (arg2 : Memref sig .tc .vmem S256x32 .i32) (harg2 : arg2.IsWhole) (arg3 : Memref sig .tc .vmem S256x1 .f32) (harg3 : arg3.IsWhole) (arg4 : Memref sig .tc .vmem S40960x256 .bf16) (harg4 : arg4.IsWhole) (arg5 : Memref sig .tc .vmem S256 .f32) (harg5 : arg5.IsWhole) (arg6 : Memref sig .tc .vmem S32x512 .f32) (harg6 : arg6.IsWhole) (arg7 : Memref sig .tc .vmem S32 .f32) (harg7 : arg7.IsWhole) (arg8 : Memref sig .tc .vmem S32x32 .f32) (harg8 : arg8.IsWhole) (arg9 : Memref sig .tc .vmem S32 .f32) (harg9 : arg9.IsWhole) (arg10 : Memref sig .tc .vmem S1x32 .f32) (harg10 : arg10.IsWhole) (arg11 : Memref sig .tc .vmem S1 .f32) (harg11 : arg11.IsWhole) (arg12 : Memref sig .tc .vmem S256x1 .f32) (harg12 : arg12.IsWhole) (arg13 : Memref sig .tc .vmem S512x256 .f32) (harg13 : arg13.IsWhole)
    (v4 : Vec F S256x32 .i32) (v6 : Vec F S256x32 .i32) (X_arg4 : BufTy.Contents (Elt F) arg4.view.ty)
    (k : Fin k0_t1_loop.trips) (f_arg13 : BufTy.Contents (Elt F) arg13.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 v4 v6 X_arg4 k f_arg13
      = [⟨Rect.unit (s := S512x256) ![0, 0] S512x256.size inb_S512x256_S512x256_0_0,
          tripPay v4 v6 (View.readAt (Elt F) arg4.view (Rect.unit (s := S40960x256) (k0_off1 k) S4096x256.size (k0_off1_inb k)).toLoadRect X_arg4) k
            (View.readAt (Elt F) arg13.view (Rect.unit (s := S512x256) ![0, 0] S512x256.size inb_S512x256_S512x256_0_0).toLoadRect f_arg13)⟩] := by
  unfold tripL_k0_t1 trip_k0_t1
  dsimp only
  sl_unfold_words
  rfl

/-- Reading a buffer back after ONE store of its whole shape gives the stored value. -/
theorem read_writes_whole (v : View sig .tc .vmem S512x256 .f32) (f : v.ty.Contents (Elt F)) (w : S512x256.Idx → Elt F .f32) :
    v.read (Elt F) (v.writes (Elt F) f [⟨Rect.unit (s := S512x256) ![0, 0] S512x256.size inb_S512x256_S512x256_0_0, w⟩]) = w := by
  have hc : ∀ y : S512x256.Idx, ∃ p ∈ [(⟨Rect.unit (s := S512x256) ![0, 0] S512x256.size inb_S512x256_S512x256_0_0, w⟩ : View.Piece (Elt F) S512x256 .f32)], y ∈ p.1.set :=
    fun y => ⟨⟨Rect.unit (s := S512x256) ![0, 0] S512x256.size inb_S512x256_S512x256_0_0, w⟩, List.mem_singleton_self _,
      View.mem_set_unit_zero (S := S512x256) zero2 inb_S512x256_S512x256_0_0 y⟩
  rw [View.read_writes_eq_canon _ _ _ hc]
  exact View.canon_unit_zero (S := S512x256) zero2 inb_S512x256_S512x256_0_0 w

/-- The accumulator's contents after `k` passes of the loop read as `accAt … k`. -/
theorem read_pb (𝒱 : Variants) (bd : Option 𝒱.V) (c : Dev nD) (i : grid0.Coords) (arg1 : Memref sig .tc .vmem S256x32 .i32) (harg1 : arg1.IsWhole) (arg2 : Memref sig .tc .vmem S256x32 .i32) (harg2 : arg2.IsWhole) (arg3 : Memref sig .tc .vmem S256x1 .f32) (harg3 : arg3.IsWhole) (arg4 : Memref sig .tc .vmem S40960x256 .bf16) (harg4 : arg4.IsWhole) (arg5 : Memref sig .tc .vmem S256 .f32) (harg5 : arg5.IsWhole) (arg6 : Memref sig .tc .vmem S32x512 .f32) (harg6 : arg6.IsWhole) (arg7 : Memref sig .tc .vmem S32 .f32) (harg7 : arg7.IsWhole) (arg8 : Memref sig .tc .vmem S32x32 .f32) (harg8 : arg8.IsWhole) (arg9 : Memref sig .tc .vmem S32 .f32) (harg9 : arg9.IsWhole) (arg10 : Memref sig .tc .vmem S1x32 .f32) (harg10 : arg10.IsWhole) (arg11 : Memref sig .tc .vmem S1 .f32) (harg11 : arg11.IsWhole) (arg12 : Memref sig .tc .vmem S256x1 .f32) (harg12 : arg12.IsWhole) (arg13 : Memref sig .tc .vmem S512x256 .f32) (harg13 : arg13.IsWhole)
    (x0 x1 : Vec F S256x32 .i32) (x3 : Vec F S40960x256 .bf16) (f : arg13.view.ty.Contents (Elt F)) :
    ∀ k : ℕ, k ≤ k0_t1_loop.trips →
      arg13.view.read (Elt F) (arg13.view.writes (Elt F)
        (arg13.view.writes (Elt F) f [⟨Rect.unit (s := S512x256) ![0, 0] S512x256.size inb_S512x256_S512x256_0_0, k0_pay14⟩])
        (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 x0 x1 (harg4.unread x3)
          (arg13.view.writes (Elt F) f [⟨Rect.unit (s := S512x256) ![0, 0] S512x256.size inb_S512x256_S512x256_0_0, k0_pay14⟩]) k))
        = accAt x0 x1 x3 k
  | 0, _ => by
    rw [pb_k0_t1.eq_1, View.writes_nil]
    exact read_writes_whole _ _ _
  | k + 1, hk => by
    have hk' : k < k0_t1_loop.trips := hk
    have ih := read_pb 𝒱 bd c i arg1 harg1 arg2 harg2 arg3 harg3 arg4 harg4 arg5 harg5 arg6 harg6 arg7 harg7 arg8 harg8 arg9 harg9 arg10 harg10 arg11 harg11 arg12 harg12 arg13 harg13 x0 x1 x3 f k (Nat.le_of_lt hk')
    rw [show k + 1 = (⟨k, hk'⟩ : Fin k0_t1_loop.trips).val + 1 from rfl, pb_k0_t1_succ, View.writes_append, tripL_eq,
      read_writes_whole]
    show tripPay _ _ _ _ _ = accAt x0 x1 x3 (k + 1)
    rw [accAt, dif_pos hk']
    congr 1
    · rw [View.readAt_eq_ld, harg4.read_unread]; rfl
    · rw [View.readAt_eq_ld, View.ld_unit_zero (S := S512x256) zero2]; exact ih

/-- The loop runs ten passes. -/
theorem trips_eq : k0_t1_loop.trips = 10 := by decide

/-- What the body leaves in the output block: `tailPay` of the accumulator after all passes and of the blocks the
    body is given. -/
theorem out0_eq (c : Dev nD) (i : grid0.Coords) (arg1 : Memref sig .tc .vmem S256x32 .i32) (harg1 : arg1.IsWhole) (arg2 : Memref sig .tc .vmem S256x32 .i32) (harg2 : arg2.IsWhole) (arg3 : Memref sig .tc .vmem S256x1 .f32) (harg3 : arg3.IsWhole) (arg4 : Memref sig .tc .vmem S40960x256 .bf16) (harg4 : arg4.IsWhole) (arg5 : Memref sig .tc .vmem S256 .f32) (harg5 : arg5.IsWhole) (arg6 : Memref sig .tc .vmem S32x512 .f32) (harg6 : arg6.IsWhole) (arg7 : Memref sig .tc .vmem S32 .f32) (harg7 : arg7.IsWhole) (arg8 : Memref sig .tc .vmem S32x32 .f32) (harg8 : arg8.IsWhole) (arg9 : Memref sig .tc .vmem S32 .f32) (harg9 : arg9.IsWhole) (arg10 : Memref sig .tc .vmem S1x32 .f32) (harg10 : arg10.IsWhole) (arg11 : Memref sig .tc .vmem S1 .f32) (harg11 : arg11.IsWhole) (arg12 : Memref sig .tc .vmem S256x1 .f32) (harg12 : arg12.IsWhole) (arg13 : Memref sig .tc .vmem S512x256 .f32) (harg13 : arg13.IsWhole)
    (x0 : Vec F S256x32 .i32) (x1 : Vec F S256x32 .i32) (x2 : Vec F S256x1 .f32) (x3 : Vec F S40960x256 .bf16) (x4 : Vec F S256 .f32) (x5 : Vec F S32x512 .f32) (x6 : Vec F S32 .f32) (x7 : Vec F S32x32 .f32) (x8 : Vec F S32 .f32) (x9 : Vec F S1x32 .f32) (x10 : Vec F S1 .f32) :
    out0_A_11 (F := F) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10
      = tailPay (accAt x0 x1 x3 k0_t1_loop.trips) x2 x4 x5 x6 x7 x8 x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 x7 x8 x9 x10)]
  unfold kernelRun0_A
  dsimp only
  sl_unfold_words
  rw [View.canon_unit_zero (S := S256x1) zero2]
  have hacc := read_pb (F := F) Variants.none none c i arg1 harg1 arg2 harg2 arg3 harg3 arg4 harg4 arg5 harg5 arg6 harg6 arg7 harg7 arg8 harg8 arg9 harg9 arg10 harg10 arg11 harg11 arg12 harg12 arg13 harg13 x0 x1 x3 arg13.view.junk k0_t1_loop.trips (Nat.le_refl _)
  simp only [View.readAt_eq_ld, harg1.read_unread, harg2.read_unread, harg3.read_unread, harg5.read_unread,
    harg6.read_unread, harg7.read_unread, harg8.read_unread, harg9.read_unread, harg10.read_unread, harg11.read_unread,
    View.ld_unit_zero (S := S256x32) zero2, View.ld_unit_zero (S := S256x1) zero2, View.ld_unit_zero (S := S256) zero1,
    View.ld_unit_zero (S := S32x512) zero2, View.ld_unit_zero (S := S32) zero1, View.ld_unit_zero (S := S32x32) zero2,
    View.ld_unit_zero (S := S1x32) zero2, View.ld_unit_zero (S := S1) zero1, View.ld_unit_zero (S := S512x256) zero2,
    View.writes_append]
  exact congrArg (fun S => tailPay S x2 x4 x5 x6 x7 x8 x9 x10) hacc

end Cert.Nnue

end
-- ==== Proof.Spec.lean ====
/-
  The function both programs compute, entry by entry over the extended reals.

  A position has two feature lists (white, black) of 32 signed indices each; a negative index is padding, and an
  index past the table's last row is read as the last row.  Each side's 256 accumulators are the sums of the table's
  rows its active features select, plus a bias, clipped to [0, 127].  The side to move weights the two sides into the
  512 inputs of a three-layer network (two rectified layers of 32, one output), whose logistic is the result.
-/
import Idealize.ShloMosaic.PureOps.Ideal
import Idealize.ShloMosaic.PureOps.Ideal.Laws
import Idealize.ShloMosaic.Lib.ValueIdx

noncomputable section

open scoped BigOperators

namespace Cert.Nnue

open Idealize.ShloMosaic Idealize.ShloMosaic.ValueIdx

/-- The table row a feature index selects: the index read signed and clamped into the table's 40960 rows. -/
def rowOf (x : BitVec 32) : Fin 40960 := ⟨min x.toInt.toNat 40959, by omega⟩

/-- The index a feature list entry is compared with inside the kernel: the entry clamped into [-1, 40959], signed. -/
def clipIdx (x : BitVec 32) : BitVec 32 := IntOp.minsi 40959#32 (IntOp.maxsi 4294967295#32 x)

/-! ## One position: from its two accumulator rows and its side to move to its output -/

section Row
variable (s : EReal) (accW accB : Fin 256 → EReal)
  (fb : (⟨1, ![256]⟩ : Shape).Idx → EReal)
  (w1 : (⟨2, ![32, 512]⟩ : Shape).Idx → EReal) (b1 : (⟨1, ![32]⟩ : Shape).Idx → EReal)
  (w2 : (⟨2, ![32, 32]⟩ : Shape).Idx → EReal) (b2 : (⟨1, ![32]⟩ : Shape).Idx → EReal)
  (wo : (⟨2, ![1, 32]⟩ : Shape).Idx → EReal) (bo : (⟨1, ![1]⟩ : Shape).Idx → EReal)

/-- An accumulator with its bias, clipped to [0, 127]. -/
def hiddenRow (acc : Fin 256 → EReal) (h : Fin 256) : EReal :=
  min (Ideal.ofBits .f32 0x42FE0000#32) (max (Ideal.ofBits .f32 0x00000000#32) (acc h + fb (ix1 h)))

/-- The side to move's weight `s` on `p` and `1 - s` on `q`. -/
def mixRow (p q : Fin 256 → EReal) (h : Fin 256) : EReal :=
  s * p h + (Ideal.ofBits .f32 0x3F800000#32 - s) * q h

/-- The network's 512 inputs: the mover's view in the first 256, the opponent's in the last 256. -/
def inputsRow (j : Fin 512) : EReal :=
  if hj : j.val < 256 then mixRow s (hiddenRow fb accW) (hiddenRow fb accB) ⟨j.val, hj⟩
  else mixRow s (hiddenRow fb accB) (hiddenRow fb accW) ⟨j.val - 256, by omega⟩

/-- The first rectified layer. -/
def layer1Row (o : Fin 32) : EReal :=
  max ((∑ j : Fin 512, inputsRow s accW accB fb j * w1 (ix2 o j)) + b1 (ix1 o)) (Ideal.ofBits .f32 0x00000000#32)

/-- The second rectified layer. -/
def layer2Row (o : Fin 32) : EReal :=
  max ((∑ j : Fin 32, layer1Row s accW accB fb w1 b1 j * w2 (ix2 o j)) + b2 (ix1 o)) (Ideal.ofBits .f32 0x00000000#32)

/-- The output's pre-activation. -/
def logitRow : EReal :=
  (∑ j : Fin 32, layer2Row s accW accB fb w1 b1 w2 b2 j * wo (ix2 0 j)) + bo (ix1 0)

/-- The position's output. -/
def outRow : EReal := Ideal.logistic (logitRow s accW accB fb w1 b1 w2 b2 wo bo)

end Row

/-! ## The whole batch -/

/-- One side's accumulator `h` of position `b`: the sum, over the list's active (non-negative) entries, of the
    table's entry in column `h` of the row the entry selects. -/
def emb (W : (⟨2, ![256, 40960]⟩ : Shape).Idx → EReal) (feat : (⟨2, ![8192, 32]⟩ : Shape).Idx → BitVec 32)
    (b : Fin 8192) (h : Fin 256) : EReal :=
  ∑ f : Fin 32, if 0 ≤ (feat (ix2 b f)).toInt then W (ix2 h (rowOf (feat (ix2 b f)))) else 0

/-- The result array: each position's output. -/
def result (wf bf : (⟨2, ![8192, 32]⟩ : Shape).Idx → BitVec 32) (stm : (⟨1, ![8192]⟩ : Shape).Idx → EReal)
    (W : (⟨2, ![256, 40960]⟩ : Shape).Idx → EReal) (fb : (⟨1, ![256]⟩ : Shape).Idx → EReal)
    (w1 : (⟨2, ![32, 512]⟩ : Shape).Idx → EReal) (b1 : (⟨1, ![32]⟩ : Shape).Idx → EReal)
    (w2 : (⟨2, ![32, 32]⟩ : Shape).Idx → EReal) (b2 : (⟨1, ![32]⟩ : Shape).Idx → EReal)
    (wo : (⟨2, ![1, 32]⟩ : Shape).Idx → EReal) (bo : (⟨1, ![1]⟩ : Shape).Idx → EReal) :
    (⟨1, ![8192]⟩ : Shape).Idx → EReal :=
  fun i => outRow (stm (ix1 (i 0))) (emb W wf (i 0)) (emb W bf (i 0)) fb w1 b1 w2 b2 wo bo

end Cert.Nnue

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.TailValue.lean ====
/-
  The network applied to the final accumulator, one position at a time.

  The output block's entry of position `r` is the logistic of the logit of a three-layer network whose 512 inputs are
  two views of the position: each view mixes the two sides' biased, clipped accumulator rows (rows `r` and `r + 256` of
  the accumulator) by the side to move and its complement.  Each matrix product is read entry by entry as a dot
  product with a row of the weight matrix, so the block's entry is the specification's `outRow` of the two rows.
-/
import proofs.«407513_j18287970746445_3_alg».proof.Proof.Payload
import proofs.«407513_j18287970746445_3_alg».proof.Proof.Spec
import proofs.«407513_j18287970746445_3_alg».proof.Proof.LibRowDims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.Nnue

open Idealize.ShloMosaic Idealize.ShloMosaic.ValueIdx Idealize.ShloMosaic.RowDims Cert.KernelIdeal Cert.KernelIdeal.Gen

/-! ## Layout operations read at explicit coordinates -/

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two `[256, 256]` blocks set side by side: column `j` of the result is column `j` of the first block when
    `j < 256`, and column `j - 256` of the second otherwise. -/
theorem concat_cols_apply {α : Type} (x₁ x₂ : S256x256.Idx → α)
    (h : Shape.Concatenates [S256x256, S256x256] S256x512 1) (r : Fin 256) (j : Fin 512) :
    concatenate S256x512 1 [⟨S256x256, x₁⟩, ⟨S256x256, x₂⟩] h (ix2 r j)
      = if hj : j.val < 256 then x₁ (ix2 r ⟨j.val, hj⟩) else x₂ (ix2 r ⟨j.val - 256, by omega⟩) := by
  split
  · next hj =>
    exact concatenate_pair_apply_left 1 x₁ x₂ h (ix2 r j) rfl (ix2 r ⟨j.val, hj⟩)
      (fun b => match b with | ⟨0, _⟩ => rfl | ⟨1, _⟩ => rfl)
  · next hj =>
    refine concatenate_pair_apply_right 1 x₁ x₂ h (ix2 r j) rfl rfl (ix2 r ⟨j.val - 256, by omega⟩)
      (fun b hb => match b, hb with | ⟨0, _⟩, _ => rfl | ⟨1, _⟩, hb => absurd rfl hb) ?_
    show j.val - 256 + 256 = j.val
    omega

/-- A dense layer before its activation: the input times the transposed weight matrix, accumulated from zero, plus
    the bias row broadcast over the batch.  Entry `(p, q)` is the dot product of input row `p` with weight row `q`,
    plus bias `q`. -/
theorem dense_apply {M K N : ℕ} (inp : FVec Ideal ⟨2, ![M, K]⟩ .f32) (w : FVec Ideal ⟨2, ![N, K]⟩ .f32)
    (b : FVec Ideal ⟨1, ![N]⟩ .f32)
    (ht : (⟨2, ![N, K]⟩ : Shape).Transposes [1, 0] ⟨2, ![K, N]⟩)
    (hc : (⟨1, ![N]⟩ : Shape).ShapeCasts ⟨2, ![1, N]⟩)
    (hb : (⟨2, ![1, N]⟩ : Shape).Broadcasts ⟨2, ![M, N]⟩) (p : Fin M) (q : Fin N) :
    addf (matmul (DotDims.plain M K N) none inp (transpose ⟨2, ![K, N]⟩ [1, 0] w ht)
        (constant ⟨2, ![M, N]⟩ .f32 0x00000000#32))
      (broadcastTo ⟨2, ![M, N]⟩ (shapeCast ⟨2, ![1, N]⟩ b hc) hb) (ix2 p q)
      = (∑ k : Fin K, inp (ix2 p k) * w (ix2 q k)) + b (ix1 q) := by
  rw [addf_apply, broadcastTo_1b_ab_apply, shapeCast_a_1a_apply]
  congr 1
  refine (matmul_plain_zero_apply none inp _ p q).trans ?_
  refine Finset.sum_congr rfl fun k _ => ?_
  rw [transpose_ix2_apply]

/-! ## The two sides' clipped accumulators and the mover's view -/

/-- The first 256 rows of the accumulator, biased and clipped. -/
theorem pay18_apply (s : Vec Ideal S512x256 .f32) (x4 : Vec Ideal S256 .f32) (r h : Fin 256) :
    k0_pay18 (F := Ideal) s x4 (ix2 r h) = hiddenRow x4 (fun h => s (ix2 ⟨r.val, by omega⟩ h)) h := by
  unfold k0_pay18 k0_pay17 hiddenRow
  simp only [minimumf_apply, maximumf_apply, addf_apply, broadcast_apply]
  rw [slice2_axis0_apply 0 s _ r h ⟨r.val, by omega⟩ (by simp), broadcastTo_1b_ab_apply, shapeCast_a_1a_apply]
  rfl

/-- The last 256 rows of the accumulator, biased and clipped. -/
theorem pay19_apply (s : Vec Ideal S512x256 .f32) (x4 : Vec Ideal S256 .f32) (r h : Fin 256) :
    k0_pay19 (F := Ideal) s x4 (ix2 r h) = hiddenRow x4 (fun h => s (ix2 ⟨r.val + 256, by omega⟩ h)) h := by
  unfold k0_pay19 k0_pay17 hiddenRow
  simp only [minimumf_apply, maximumf_apply, addf_apply, broadcast_apply]
  rw [slice2_axis0_apply 256 s _ r h ⟨r.val + 256, by omega⟩ (by show r.val + 256 = 256 + r.val; omega),
    broadcastTo_1b_ab_apply, shapeCast_a_1a_apply]
  rfl

/-- The side-to-move column is passed on unchanged. -/
theorem pay20_eq (x2 : Vec Ideal S256x1 .f32) : k0_pay20 (F := Ideal) x2 = x2 := shapeCast_self _ _

/-- A mix of two blocks by a column of weights `t`: `t · P + (1 − t) · Q`, entry by entry. -/
theorem mix_apply (t : FVec Ideal S256x1 .f32) (P Q : FVec Ideal S256x256 .f32)
    (hb : S256x1.Broadcasts S256x256) (r h : Fin 256) :
    addf (mulf (broadcastTo S256x256 t hb) P)
        (mulf (broadcastTo S256x256 (subf (broadcast S256x1 (Scalar.ofBits (F := Ideal) .f32 0x3F800000#32)) t) hb) Q) (ix2 r h)
      = t (ix2 r 0) * P (ix2 r h) + (Ideal.ofBits .f32 0x3F800000#32 - t (ix2 r 0)) * Q (ix2 r h) := by
  simp only [addf_apply, mulf_apply, broadcastTo_a1_ab_apply, subf_apply, broadcast_apply]
  rfl

/-- The mover's view: the side to move weights the first side's clipped accumulators, its complement the second's. -/
theorem pay21_apply (s : Vec Ideal S512x256 .f32) (x4 : Vec Ideal S256 .f32) (x2 : Vec Ideal S256x1 .f32) (r h : Fin 256) :
    k0_pay21 (F := Ideal) s x4 x2 (ix2 r h)
      = mixRow (x2 (ix2 r 0)) (hiddenRow x4 (fun h => s (ix2 ⟨r.val, by omega⟩ h)))
          (hiddenRow x4 (fun h => s (ix2 ⟨r.val + 256, by omega⟩ h))) h := by
  unfold k0_pay21 mixRow
  rw [pay20_eq]
  refine (mix_apply x2 _ _ _ r h).trans ?_
  rw [pay18_apply, pay19_apply]

/-- The logistic of a block, entry by entry. -/
theorem logistic_apply {s : Shape} {φ : FTy} (x : FVec Ideal s φ) (i : s.Idx) :
    logistic x i = Ideal.logistic (x i) := rfl

/-- A rectified dense layer: the dense layer's entry, or zero when that is larger. -/
theorem dense_relu_apply {M K N : ℕ} (inp : FVec Ideal ⟨2, ![M, K]⟩ .f32) (w : FVec Ideal ⟨2, ![N, K]⟩ .f32)
    (b : FVec Ideal ⟨1, ![N]⟩ .f32)
    (ht : (⟨2, ![N, K]⟩ : Shape).Transposes [1, 0] ⟨2, ![K, N]⟩)
    (hc : (⟨1, ![N]⟩ : Shape).ShapeCasts ⟨2, ![1, N]⟩)
    (hb : (⟨2, ![1, N]⟩ : Shape).Broadcasts ⟨2, ![M, N]⟩) (p : Fin M) (q : Fin N) :
    maximumf (addf (matmul (DotDims.plain M K N) none inp (transpose ⟨2, ![K, N]⟩ [1, 0] w ht)
          (constant ⟨2, ![M, N]⟩ .f32 0x00000000#32))
        (broadcastTo ⟨2, ![M, N]⟩ (shapeCast ⟨2, ![1, N]⟩ b hc) hb))
      (broadcast ⟨2, ![M, N]⟩ (Scalar.ofBits (F := Ideal) .f32 0x00000000#32)) (ix2 p q)
      = max ((∑ k : Fin K, inp (ix2 p k) * w (ix2 q k)) + b (ix1 q)) (Ideal.ofBits .f32 0x00000000#32) := by
  rw [maximumf_apply, dense_apply]
  rfl

/-- The opponent's view: the side to move weights the second side's clipped accumulators, its complement the first's. -/
theorem opp_apply (s : Vec Ideal S512x256 .f32) (x4 : Vec Ideal S256 .f32) (x2 : Vec Ideal S256x1 .f32)
    (hb : S256x1.Broadcasts S256x256) (r h : Fin 256) :
    addf (mulf (broadcastTo S256x256 (k0_pay20 (F := Ideal) x2) hb) (k0_pay19 s x4))
        (mulf (broadcastTo S256x256
          (subf (broadcast S256x1 (Scalar.ofBits (F := Ideal) .f32 0x3F800000#32)) (k0_pay20 (F := Ideal) x2)) hb)
          (k0_pay18 s x4)) (ix2 r h)
      = mixRow (x2 (ix2 r 0)) (hiddenRow x4 (fun h => s (ix2 ⟨r.val + 256, by omega⟩ h)))
          (hiddenRow x4 (fun h => s (ix2 ⟨r.val, by omega⟩ h))) h := by
  unfold mixRow
  rw [pay20_eq]
  refine (mix_apply x2 _ _ _ r h).trans ?_
  rw [pay18_apply, pay19_apply]

/-- The 512 network inputs of position `r`: the two views side by side. -/
theorem inputs_apply (s : Vec Ideal S512x256 .f32) (x4 : Vec Ideal S256 .f32) (x2 : Vec Ideal S256x1 .f32)
    (hb : S256x1.Broadcasts S256x256) (hc : Shape.Concatenates [S256x256, S256x256] S256x512 1)
    (r : Fin 256) (j : Fin 512) :
    concatenate S256x512 1
        [⟨S256x256, k0_pay21 (F := Ideal) s x4 x2⟩,
          ⟨S256x256, addf (mulf (broadcastTo S256x256 (k0_pay20 (F := Ideal) x2) hb) (k0_pay19 s x4))
            (mulf (broadcastTo S256x256
              (subf (broadcast S256x1 (Scalar.ofBits (F := Ideal) .f32 0x3F800000#32)) (k0_pay20 (F := Ideal) x2)) hb)
              (k0_pay18 s x4))⟩] hc (ix2 r j)
      = inputsRow (x2 (ix2 r 0)) (fun h => s (ix2 ⟨r.val, by omega⟩ h)) (fun h => s (ix2 ⟨r.val + 256, by omega⟩ h)) x4 j := by
  rw [concat_cols_apply]
  unfold inputsRow
  by_cases hj : j.val < 256
  · rw [dif_pos hj, dif_pos hj, pay21_apply]
  · rw [dif_neg hj, dif_neg hj, opp_apply]

/-- The output block, one position at a time: the network applied to the position's two accumulator rows. -/
theorem tailPay_apply (s : Vec Ideal S512x256 .f32) (x2 : Vec Ideal S256x1 .f32) (x4 : Vec Ideal S256 .f32) (x5 : Vec Ideal S32x512 .f32) (x6 : Vec Ideal S32 .f32) (x7 : Vec Ideal S32x32 .f32) (x8 : Vec Ideal S32 .f32) (x9 : Vec Ideal S1x32 .f32) (x10 : Vec Ideal S1 .f32) (r : Fin 256) :
    tailPay (F := Ideal) s x2 x4 x5 x6 x7 x8 x9 x10 (ValueIdx.ix2 r 0)
      = outRow (x2 (ValueIdx.ix2 r 0)) (fun h => s (ValueIdx.ix2 ⟨r.val, by omega⟩ h)) (fun h => s (ValueIdx.ix2 ⟨r.val + 256, by omega⟩ h)) x4 x5 x6 x7 x8 x9 x10 := by
  have e1 : dot_S256x512_S512x32_S256x32_1_0_0_1_n_n = DotDims.plain 256 512 32 := rfl
  have e2 : dot_S256x32_S32x32_S256x32_1_0_0_1_n_n = DotDims.plain 256 32 32 := rfl
  have e3 : dot_S256x32_S32x1_S256x1_1_0_0_1_n_n = DotDims.plain 256 32 1 := rfl
  unfold tailPay k0_pay1 outRow logitRow
  simp only [e1, e2, e3, logistic_apply]
  -- the output layer
  rw [dense_apply]
  refine congrArg Ideal.logistic (congrArg (· + _) (Finset.sum_congr rfl fun j _ => congrArg (· * _) ?_))
  -- the second rectified layer
  rw [dense_relu_apply]
  unfold layer2Row
  refine congrArg (max · _) (congrArg (· + _) (Finset.sum_congr rfl fun i _ => congrArg (· * _) ?_))
  -- the first rectified layer
  rw [dense_relu_apply]
  unfold layer1Row
  refine congrArg (max · _) (congrArg (· + _) (Finset.sum_congr rfl fun l _ => congrArg (· * _) ?_))
  -- the inputs
  exact inputs_apply s x4 x2 _ _ r l

end Cert.Nnue

end
-- ==== Proof.TripValue.lean ====
/-
  One pass of the chunk loop, entry by entry.

  The pass builds a 512 × 4096 array of match counts: entry (r, v) counts the positions f of the r-th stacked feature
  list whose word equals the vocabulary word 4096 k + v of the pass.  It then multiplies that array with the pass's
  4096 × 256 slab of the table and adds the product to the accumulator.  Read at (r, h) this is the accumulator's
  entry plus the sum over v of count (r, v) times slab (v, h).
-/
import proofs.«407513_j18287970746445_3_alg».proof.Proof.Payload
import proofs.«407513_j18287970746445_3_alg».proof.Proof.LibRowDims
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

noncomputable section

open scoped BigOperators

namespace Cert.Nnue

open Cert.KernelIdeal Cert.KernelIdeal.Gen Idealize.ShloMosaic Idealize.ShloMosaic.ValueIdx

/-- Whether position `o` of row `r` of the index array `v8` holds the word at column `v` of the one-row array `voc`,
    as the number 1 or 0 (and 0 for a position past the row's end). -/
def hit (v8 : IVec S512x32 32) (voc : IVec S1x4096 32) (r : Fin 512) (v : Fin 4096) (o : ℕ) : EReal :=
  if h : o < 32 then (if v8 (ix2 r ⟨o, h⟩) = voc (ix2 (0 : Fin 1) v) then 1 else 0) else 0

/-- A one-column array broadcast along its column axis reads, at `(p, c)`, the column's entry `p`. -/
theorem broadcastTo_column_apply {α : Type} {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

/-- A bit widened to a word and converted signed is the number 1 or 0. -/
theorem sitofp_ofBool (c : Bool) :
    ((((BitVec.ofBool c).setWidth 32).toInt : ℝ) : EReal) = if c then 1 else 0 := by
  cases c <;> simp

/-- One summand of the match counts: the comparison of column `o` of `v8`, broadcast along the vocabulary axis, with
    the vocabulary row broadcast along the list axis, converted to a number. -/
theorem slab_apply (v8 : IVec S512x32 32) (voc : IVec S1x4096 32) (o : ℕ)
    (hs : S512x32.Slices ![0, o] S512x1) (hb1 : S512x1.Broadcasts S512x4096) (hb2 : S1x4096.Broadcasts S512x4096)
    (h1 : 1 < 32) (h2 : FTy.bits .bf16 < FTy.bits .f32) (r : Fin 512) (v : Fin 4096) :
    (truncf .bf16 (sitofp .f32 (extui 32 (cmpi .eq (broadcastTo S512x4096 (extractStridedSlice S512x1 ![0, o] v8 hs) hb1)
      (broadcastTo S512x4096 voc hb2)) h1) : FVec Ideal S512x4096 .f32) h2 : FVec Ideal S512x4096 .bf16) (ix2 r v)
      = hit v8 voc r v o := by
  have ho : o < 32 := Nat.lt_of_lt_of_le (Nat.lt_succ_self o) (hs.2 1)
  have e1 : broadcastTo S512x4096 (extractStridedSlice S512x1 ![0, o] v8 hs) hb1 (ix2 r v) = v8 (ix2 r ⟨o, ho⟩) := by
    rw [broadcastTo_column_apply]
    exact slice2_axis1_apply o v8 hs r (0 : Fin 1) ⟨o, ho⟩ rfl
  have e2 : broadcastTo S512x4096 voc hb2 (ix2 r v) = voc (ix2 (0 : Fin 1) v) := broadcastTo_1b_ab_apply voc hb2 r v
  show (((((BitVec.ofBool (_ == _)).setWidth 32).toInt : ℝ) : EReal)) = _
  rw [e1, e2, sitofp_ofBool, hit, dif_pos ho]
  simp only [beq_iff_eq]

/-- The vocabulary row of pass `k`: its entry `v` is the word `4096 k + v`. -/
theorem pay2_apply (k : Fin k0_t1_loop.trips) (v : Fin 4096) :
    k0_pay2 (0#32) (1#32) k (ix2 (0 : Fin 1) v) = BitVec.ofNat 32 (4096 * k.val + v.val) := by
  have hi : iota .tc S1x4096 32 [1] Facts₀.iota_S1x4096_d1_w32 (ix2 (0 : Fin 1) v) = BitVec.ofNat 32 v.val :=
    iota_single_apply .tc S1x4096 32 1 _ _
  show IntOp.addi (Scalar.muli (Scf.iv (0#32) (1#32) k.val) 4096#32) (iota .tc S1x4096 32 [1] _ (ix2 (0 : Fin 1) v)) = _
  rw [hi]
  show (0#32 + BitVec.ofNat 32 k.val * 1#32) * 4096#32 + BitVec.ofNat 32 v.val = _
  rw [BitVec.zero_add, BitVec.mul_one, BitVec.ofNat_add, BitVec.ofNat_mul, BitVec.mul_comm]

/-- The stacked feature lists, entry by entry: the white lists in rows 0 … 255, the black lists in rows 256 … 511. -/
theorem pay15_apply (v4 v6 : Vec Ideal S256x32 .i32) (r : Fin 512) (f : Fin 32) :
    k0_pay15 (F := Ideal) v4 v6 (ix2 r f) = stacked v4 v6 r f := by
  unfold k0_pay15 stacked
  simp only [shapeCast_self]
  by_cases hr : r.val < 256
  · rw [dif_pos hr]
    refine concatenate_pair_apply_left (0 : Fin 2) v4 v6 _ (ix2 r f) rfl (ix2 ⟨r.val, hr⟩ f) fun b => ?_
    match b with
    | ⟨0, _⟩ => rfl
    | ⟨1, _⟩ => rfl
  · rw [dif_neg hr]
    refine concatenate_pair_apply_right (0 : Fin 2) v4 v6 _ (ix2 r f) rfl rfl (ix2 ⟨r.val - 256, by omega⟩ f) (fun b hb => ?_) ?_
    · match b with
      | ⟨0, _⟩ => exact absurd rfl hb
      | ⟨1, _⟩ => rfl
    · show r.val - 256 + 256 = r.val
      omega

section Counts
variable (v8 : IVec S512x32 32) (voc : IVec S1x4096 32) (r : Fin 512) (v : Fin 4096)

/-- The first five summands, added to the zero array. -/
theorem pay4_apply (k : Fin k0_t1_loop.trips) :
    k0_pay4 (F := Ideal) v8 (0#32) (1#32) k (ix2 r v)
      = 0 + hit v8 (k0_pay2 (0#32) (1#32) k) r v 0 + hit v8 (k0_pay2 (0#32) (1#32) k) r v 1
        + hit v8 (k0_pay2 (0#32) (1#32) k) r v 2 + hit v8 (k0_pay2 (0#32) (1#32) k) r v 3
        + hit v8 (k0_pay2 (0#32) (1#32) k) r v 4 := by
  have hz : (Scalar.ofBits .bf16 0x0000#16 : Ideal .bf16) = (0 : EReal) := Ideal.ofBits_zero_bf16
  simp only [k0_pay4, addf_apply, broadcast_apply, slab_apply, hz]

/-- The sixth summand. -/
theorem pay5_apply (k : Fin k0_t1_loop.trips) :
    k0_pay5 (F := Ideal) v8 (0#32) (1#32) k (ix2 r v) = hit v8 (k0_pay2 (0#32) (1#32) k) r v 5 :=
  slab_apply v8 (k0_pay2 (0#32) (1#32) k) 5 _ _ _ _ _ r v

/-- Summands 6 … 12 added to the sum of two arrays. -/
theorem pay6_apply (a b : FVec Ideal S512x4096 .bf16) :
    k0_pay6 (F := Ideal) v8 voc a b (ix2 r v)
      = a (ix2 r v) + b (ix2 r v) + hit v8 voc r v 6 + hit v8 voc r v 7 + hit v8 voc r v 8 + hit v8 voc r v 9
        + hit v8 voc r v 10 + hit v8 voc r v 11 + hit v8 voc r v 12 := by
  simp only [k0_pay6, addf_apply, slab_apply]

/-- Summands 13 … 19 added to an array. -/
theorem pay9_apply (a : FVec Ideal S512x4096 .bf16) :
    k0_pay9 (F := Ideal) v8 voc a (k0_pay7 v8) (k0_pay8 voc) (ix2 r v)
      = a (ix2 r v) + hit v8 voc r v 13 + hit v8 voc r v 14 + hit v8 voc r v 15 + hit v8 voc r v 16
        + hit v8 voc r v 17 + hit v8 voc r v 18 + hit v8 voc r v 19 := by
  simp only [k0_pay9, k0_pay7, k0_pay8, addf_apply, slab_apply]

/-- The twenty-first summand. -/
theorem pay10_apply :
    k0_pay10 (F := Ideal) v8 voc (ix2 r v) = hit v8 voc r v 20 :=
  slab_apply v8 voc 20 _ _ _ _ _ r v

/-- Summands 21 … 27 added to the sum of two arrays. -/
theorem pay11_apply (a b : FVec Ideal S512x4096 .bf16) :
    k0_pay11 (F := Ideal) v8 voc a b (ix2 r v)
      = a (ix2 r v) + b (ix2 r v) + hit v8 voc r v 21 + hit v8 voc r v 22 + hit v8 voc r v 23 + hit v8 voc r v 24
        + hit v8 voc r v 25 + hit v8 voc r v 26 + hit v8 voc r v 27 := by
  simp only [k0_pay11, addf_apply, slab_apply]

end Counts

/-- The last four summands, the product with the pass's slab of the table, and the sum with the accumulator. -/
theorem pay16_apply (v4 v6 : Vec Ideal S256x32 .i32) (voc : IVec S1x4096 32) (w : FVec Ideal S4096x256 .bf16)
    (a : FVec Ideal S512x4096 .bf16) (s : Vec Ideal S512x256 .f32) (r : Fin 512) (h : Fin 256) :
    k0_pay16 (F := Ideal) v4 v6 voc w a (k0_pay12 (k0_pay15 v4 v6)) (k0_pay13 voc) s (ix2 r h)
      = s (ix2 r h) + ∑ v : Fin 4096, (a (ix2 r v) + hit (k0_pay15 v4 v6) voc r v 28 + hit (k0_pay15 v4 v6) voc r v 29
          + hit (k0_pay15 v4 v6) voc r v 30 + hit (k0_pay15 v4 v6) voc r v 31) * w (ix2 v h) := by
  have hd : dot_S512x4096_S4096x256_S512x256_1_0_0_1_n_n = DotDims.plain 512 4096 256 := rfl
  simp only [k0_pay16, k0_pay12, k0_pay13, shapeCast_self, addf_apply, hd, matmul]
  rw [RowDims.matmul_plain_zero_apply]
  simp only [addf_apply, slab_apply]

/-- The 32 summands of one entry of the match counts are the 32 positions of the stacked list compared with the
    pass's vocabulary word. -/
theorem sum_hit (v4 v6 : Vec Ideal S256x32 .i32) (k : Fin k0_t1_loop.trips) (r : Fin 512) (v : Fin 4096) :
    ∑ o ∈ Finset.range 32, hit (k0_pay15 (F := Ideal) v4 v6) (k0_pay2 (0#32) (1#32) k) r v o
      = ∑ f : Fin 32, if stacked v4 v6 r f = BitVec.ofNat 32 (4096 * k.val + v.val) then (1 : EReal) else 0 := by
  rw [← Fin.sum_univ_eq_sum_range (fun o => hit (k0_pay15 (F := Ideal) v4 v6) (k0_pay2 (0#32) (1#32) k) r v o) 32]
  refine Finset.sum_congr rfl fun f _ => ?_
  rw [hit, dif_pos f.isLt]
  show (if k0_pay15 (F := Ideal) v4 v6 (ix2 r f) = k0_pay2 (0#32) (1#32) k (ix2 (0 : Fin 1) v) then (1 : EReal) else 0) = _
  rw [pay15_apply, pay2_apply]

/-- One pass of the chunk loop at the entry `(r, h)`: the accumulator's entry plus, over the pass's 4096 vocabulary
    words, the number of positions of the `r`-th stacked list holding the word times the word's table entry. -/
theorem tripPay_apply (v4 v6 : Vec Ideal S256x32 .i32) (wchunk : Vec Ideal S4096x256 .bf16) (k : Fin k0_t1_loop.trips)
    (s : Vec Ideal S512x256 .f32) (r : Fin 512) (h : Fin 256) :
    tripPay (F := Ideal) v4 v6 wchunk k s (ValueIdx.ix2 r h)
      = s (ValueIdx.ix2 r h) + ∑ v : Fin 4096, (∑ f : Fin 32, (if stacked v4 v6 r f = BitVec.ofNat 32 (4096 * k.val + v.val) then (1 : EReal) else 0)) * wchunk (ValueIdx.ix2 v h) := by
  unfold tripPay
  rw [pay16_apply]
  congr 1
  refine Finset.sum_congr rfl fun v _ => ?_
  congr 1
  · rw [pay11_apply, pay9_apply, pay10_apply, pay6_apply, pay4_apply, pay5_apply, ← sum_hit]
    simp only [Finset.sum_range_succ, Finset.sum_range_zero]
  · unfold k0_pay3
    rw [shapeCast_self]

end Cert.Nnue

end
-- ==== Proof.AccValue.lean ====
/-
  The accumulator after all passes of the chunk loop, entry by entry.

  The accumulator starts at zero and each of the ten passes adds, at entry `(r, h)`, the sum over the pass's 4096
  vocabulary entries of the number of features of list `r` equal to the entry times the entry's table row at column
  `h`; pass `k` reads the table rows `4096 k … 4096 k + 4095`.  By induction on the number of passes the accumulator
  is the sum of the passes' terms, and after the last pass the sum runs over the ten passes.
-/
import proofs.«407513_j18287970746445_3_alg».proof.Proof.KernelBody
import proofs.«407513_j18287970746445_3_alg».proof.Proof.TripValue
import Idealize.ShloMosaic.Lib.ValueIdx
import Idealize.ShloMosaic.Lib.Pipeline.Value
import Idealize.ShloMosaic.PureOps.Ideal.Laws

noncomputable section

open scoped BigOperators

namespace Cert.Nnue

open Idealize.ShloMosaic Idealize.ShloMosaic.ValueIdx Cert.KernelIdeal Cert.KernelIdeal.Gen

/-! ## The pieces of the recursion -/

/-- The accumulator starts at zero. -/
theorem pay14_apply (i : S512x256.Idx) : k0_pay14 (F := Ideal) i = 0 := by
  unfold k0_pay14
  rw [shapeCast_self]
  exact Ideal.ofBits_zero_f32

/-- Pass `k` loads the table from row `4096 k` on, all columns. -/
theorem off1_eq : ∀ k : Fin k0_t1_loop.trips, k0_off1 k 0 = 4096 * k.val ∧ k0_off1 k 1 = 0 := by decide

/-- Row `v` of the rows pass `k` loads is row `4096 k + v` of the table. -/
theorem chunk_apply (x3 : Vec Ideal S40960x256 .bf16) (k : Fin k0_t1_loop.trips) (v : Fin 4096) (h : Fin 256)
    (hv : 4096 * k.val + v.val < 40960) :
    chunk (F := Ideal) x3 k (ix2 v h) = x3 (ix2 ⟨4096 * k.val + v.val, hv⟩ h) := by
  unfold chunk
  show x3 _ = x3 _
  congr 1
  funext a
  refine Fin.ext ?_
  match a with
  | ⟨0, _⟩ =>
    show k0_off1 k 0 + 1 * v.val = 4096 * k.val + v.val
    rw [(off1_eq k).1]; omega
  | ⟨1, _⟩ =>
    show k0_off1 k 1 + 1 * h.val = h.val
    rw [(off1_eq k).2]; omega

/-- What pass `j` adds at entry `(r, h)`: over the pass's 4096 vocabulary entries, the number of features of list `r`
    equal to the entry, times the entry's table row at column `h`. -/
def passTerm (v4 v6 : Vec Ideal S256x32 .i32) (x3 : Vec Ideal S40960x256 .bf16) (r : Fin 512) (h : Fin 256) (j : ℕ) : EReal :=
  ∑ v : Fin 4096, (∑ f : Fin 32, (if stacked v4 v6 r f = BitVec.ofNat 32 (4096 * j + v.val) then (1 : EReal) else 0))
    * (if hv : 4096 * j + v.val < 40960 then x3 (ix2 ⟨4096 * j + v.val, hv⟩ h) else 0)

/-- After `n` passes the accumulator holds the first `n` passes' terms. -/
theorem accAt_range (v4 v6 : Vec Ideal S256x32 .i32) (x3 : Vec Ideal S40960x256 .bf16) (r : Fin 512) (h : Fin 256) :
    ∀ n : ℕ, n ≤ k0_t1_loop.trips →
      accAt (F := Ideal) v4 v6 x3 n (ix2 r h) = ∑ j ∈ Finset.range n, passTerm v4 v6 x3 r h j
  | 0, _ => by
    rw [accAt, Finset.range_zero, Finset.sum_empty]
    exact pay14_apply _
  | n + 1, hn => by
    have hn' : n < k0_t1_loop.trips := hn
    have hn10 : n < 10 := by have := hn'; rw [trips_eq] at this; exact this
    rw [accAt, dif_pos hn', tripPay_apply, accAt_range v4 v6 x3 r h n (Nat.le_of_lt hn'), Finset.sum_range_succ]
    congr 1
    unfold passTerm
    refine Finset.sum_congr rfl fun v _ => ?_
    have hv : 4096 * n + v.val < 40960 := by have := v.isLt; omega
    rw [dif_pos hv, chunk_apply x3 ⟨n, hn'⟩ v h hv]

/-- The accumulator after all ten passes, entry by entry: over the whole vocabulary, cut into ten runs of 4096, the
    number of features of list `r` equal to the entry, times the entry's table row at column `h`. -/
theorem accAt_apply (v4 v6 : Vec Ideal S256x32 .i32) (x3 : Vec Ideal S40960x256 .bf16) (r : Fin 512) (h : Fin 256) :
    accAt (F := Ideal) v4 v6 x3 k0_t1_loop.trips (ValueIdx.ix2 r h)
      = ∑ k : Fin 10, ∑ v : Fin 4096, (∑ f : Fin 32, (if stacked v4 v6 r f = BitVec.ofNat 32 (4096 * k.val + v.val) then (1 : EReal) else 0)) * x3 (ValueIdx.ix2 ⟨4096 * k.val + v.val, by omega⟩ h) := by
  rw [accAt_range v4 v6 x3 r h _ (Nat.le_refl _), trips_eq, Finset.sum_range]
  refine Finset.sum_congr rfl fun k _ => ?_
  unfold passTerm
  refine Finset.sum_congr rfl fun v _ => ?_
  have hv : 4096 * k.val + v.val < 40960 := by have := v.isLt; have := k.isLt; omega
  rw [dif_pos hv]

end Cert.Nnue

end
-- ==== Proof.OneHot.lean ====
/-
  The index arithmetic behind the one-hot form of a table lookup.

  A list entry is a signed 32-bit word.  Clamping it into [-1, 40959] keeps its sign and, when it is non-negative,
  keeps the table row it selects.  Comparing a clamped entry with every row number 4096 k + v (ten blocks of 4096)
  gives a 0/1 vector with at most one 1; multiplying the per-row match counts of a list by a column of the table and
  adding everything up is therefore the sum of the column's entries at the rows the list's non-negative entries
  select.  Over the extended reals multiplication distributes over a sum of NON-NEGATIVE coefficients only, which is
  all that is used here (the coefficients are 0 or 1), so nothing has to be finite.
-/
import proofs.«407513_j18287970746445_3_alg».proof.Proof.Spec
import Mathlib.Data.EReal.Operations
import Mathlib.Algebra.Order.BigOperators.Group.Finset

noncomputable section

open scoped BigOperators

namespace Cert.Nnue

open Idealize.ShloMosaic

/-- The clamped entry read signed: the entry's signed value clamped into [-1, 40959]. -/
private theorem toInt_clipIdx (x : BitVec 32) : (clipIdx x).toInt = min 40959 (max (-1) x.toInt) := by
  have h1 : (4294967295#32 : BitVec 32).toInt = -1 := by decide
  have h2 : (40959#32 : BitVec 32).toInt = 40959 := by decide
  unfold clipIdx IntOp.minsi IntOp.maxsi
  by_cases ha : x.slt 4294967295#32 = true
  · rw [if_pos ha]
    have hb : ¬ ((40959#32 : BitVec 32).slt 4294967295#32 = true) := by decide
    rw [if_neg hb]
    rw [BitVec.slt_iff_toInt_lt, h1] at ha
    omega
  · rw [if_neg ha]
    rw [BitVec.slt_iff_toInt_lt, h1] at ha
    by_cases hb : (40959#32 : BitVec 32).slt x = true
    · rw [if_pos hb]
      rw [BitVec.slt_iff_toInt_lt, h2] at hb
      omega
    · rw [if_neg hb]
      rw [BitVec.slt_iff_toInt_lt, h2] at hb
      omega

theorem clipIdx_range (x : BitVec 32) : -1 ≤ (clipIdx x).toInt ∧ (clipIdx x).toInt ≤ 40959 := by
  rw [toInt_clipIdx]; omega

theorem clipIdx_nonneg_iff (x : BitVec 32) : 0 ≤ (clipIdx x).toInt ↔ 0 ≤ x.toInt := by
  rw [toInt_clipIdx]; omega

theorem rowOf_clipIdx (x : BitVec 32) (hx : 0 ≤ x.toInt) : rowOf (clipIdx x) = rowOf x := by
  apply Fin.ext
  show min (clipIdx x).toInt.toNat 40959 = min x.toInt.toNat 40959
  rw [toInt_clipIdx]
  omega

/-- A word equals the word of a row number exactly when its signed value is that number. -/
private theorem eq_ofNat_iff (x : BitVec 32) (m : ℕ) (hm : m < 40960) :
    x = BitVec.ofNat 32 m ↔ x.toInt = (m : ℤ) := by
  have hmod : m % 2 ^ 32 = m := Nat.mod_eq_of_lt (by omega)
  constructor
  · intro h
    subst h
    rw [BitVec.toInt_eq_toNat_cond, BitVec.toNat_ofNat, hmod]
    split <;> omega
  · intro h
    apply BitVec.eq_of_toNat_eq
    rw [BitVec.toNat_ofNat, hmod]
    have e := BitVec.toInt_eq_toNat_cond x
    have := x.isLt
    split at e <;> omega

/-- Multiplication distributes over a finite sum of non-negative extended reals. -/
private theorem sum_mul_of_nonneg {ι : Type} (S : Finset ι) (a : ι → EReal) (x : EReal)
    (h : ∀ i ∈ S, 0 ≤ a i) : (∑ i ∈ S, a i) * x = ∑ i ∈ S, a i * x := by
  classical
  induction S using Finset.induction_on with
  | empty => simp
  | insert i S hi ih =>
    have hS : ∀ j ∈ S, 0 ≤ a j := fun j hj => h j (Finset.mem_insert_of_mem hj)
    rw [Finset.sum_insert hi, Finset.sum_insert hi,
      EReal.right_distrib_of_nonneg (h i (Finset.mem_insert_self i S)) (Finset.sum_nonneg hS), ih hS]

/-- One entry against all row numbers: at most one match, at the entry's own row when it is non-negative. -/
private theorem onehot_single (w : Fin 40960 → EReal) (x : BitVec 32)
    (hx : -1 ≤ x.toInt ∧ x.toInt ≤ 40959) :
    ∑ k : Fin 10, ∑ v : Fin 4096,
        (if x = BitVec.ofNat 32 (4096 * k.val + v.val) then (1 : EReal) else 0)
          * w ⟨4096 * k.val + v.val, by omega⟩
      = if 0 ≤ x.toInt then w (rowOf x) else 0 := by
  by_cases h0 : 0 ≤ x.toInt
  · rw [if_pos h0]
    have hn : x.toInt.toNat < 40960 := by omega
    rw [Finset.sum_eq_single (⟨x.toInt.toNat / 4096, by omega⟩ : Fin 10)]
    · rw [Finset.sum_eq_single (⟨x.toInt.toNat % 4096, by omega⟩ : Fin 4096)]
      · have hm : x = BitVec.ofNat 32 (4096 * (x.toInt.toNat / 4096) + x.toInt.toNat % 4096) := by
          rw [eq_ofNat_iff _ _ (by omega)]; omega
        rw [if_pos hm, one_mul]
        congr 1
        apply Fin.ext
        show 4096 * (x.toInt.toNat / 4096) + x.toInt.toNat % 4096 = min x.toInt.toNat 40959
        omega
      · intro v _ hv
        rw [if_neg, zero_mul]
        rw [eq_ofNat_iff _ _ (by omega)]
        intro h
        apply hv
        apply Fin.ext
        show v.val = x.toInt.toNat % 4096
        have : ((⟨x.toInt.toNat / 4096, by omega⟩ : Fin 10) : ℕ) = x.toInt.toNat / 4096 := rfl
        omega
      · intro h; exact absurd (Finset.mem_univ _) h
    · intro k _ hk
      apply Finset.sum_eq_zero
      intro v _
      rw [if_neg, zero_mul]
      rw [eq_ofNat_iff _ _ (by omega)]
      intro h
      apply hk
      apply Fin.ext
      show k.val = x.toInt.toNat / 4096
      omega
    · intro h; exact absurd (Finset.mem_univ _) h
  · rw [if_neg h0]
    apply Finset.sum_eq_zero
    intro k _
    apply Finset.sum_eq_zero
    intro v _
    rw [if_neg, zero_mul]
    rw [eq_ofNat_iff _ _ (by omega)]
    omega

theorem onehot_contract (w : Fin 40960 → EReal) (c : Fin 32 → BitVec 32)
    (hc : ∀ f, -1 ≤ (c f).toInt ∧ (c f).toInt ≤ 40959) :
    ∑ k : Fin 10, ∑ v : Fin 4096, (∑ f : Fin 32, (if c f = BitVec.ofNat 32 (4096 * k.val + v.val) then (1 : EReal) else 0)) * w ⟨4096 * k.val + v.val, by omega⟩
      = ∑ f : Fin 32, if 0 ≤ (c f).toInt then w (rowOf (c f)) else 0 := by
  have hdist : ∀ (k : Fin 10) (v : Fin 4096),
      (∑ f : Fin 32, (if c f = BitVec.ofNat 32 (4096 * k.val + v.val) then (1 : EReal) else 0))
          * w ⟨4096 * k.val + v.val, by omega⟩
        = ∑ f : Fin 32, (if c f = BitVec.ofNat 32 (4096 * k.val + v.val) then (1 : EReal) else 0)
          * w ⟨4096 * k.val + v.val, by omega⟩ := by
    intro k v
    apply sum_mul_of_nonneg
    intro f _
    split
    · exact zero_le_one
    · exact le_refl _
  calc ∑ k : Fin 10, ∑ v : Fin 4096, (∑ f : Fin 32, (if c f = BitVec.ofNat 32 (4096 * k.val + v.val) then (1 : EReal) else 0)) * w ⟨4096 * k.val + v.val, by omega⟩
      = ∑ k : Fin 10, ∑ v : Fin 4096, ∑ f : Fin 32,
          (if c f = BitVec.ofNat 32 (4096 * k.val + v.val) then (1 : EReal) else 0)
            * w ⟨4096 * k.val + v.val, by omega⟩ := by
        apply Finset.sum_congr rfl; intro k _
        apply Finset.sum_congr rfl; intro v _
        exact hdist k v
    _ = ∑ k : Fin 10, ∑ f : Fin 32, ∑ v : Fin 4096,
          (if c f = BitVec.ofNat 32 (4096 * k.val + v.val) then (1 : EReal) else 0)
            * w ⟨4096 * k.val + v.val, by omega⟩ := by
        apply Finset.sum_congr rfl; intro k _
        exact Finset.sum_comm
    _ = ∑ f : Fin 32, ∑ k : Fin 10, ∑ v : Fin 4096,
          (if c f = BitVec.ofNat 32 (4096 * k.val + v.val) then (1 : EReal) else 0)
            * w ⟨4096 * k.val + v.val, by omega⟩ := Finset.sum_comm
    _ = ∑ f : Fin 32, if 0 ≤ (c f).toInt then w (rowOf (c f)) else 0 := by
        apply Finset.sum_congr rfl; intro f _
        exact onehot_single w (c f) (hc f)

end Cert.Nnue

end
-- ==== Proof.EmbCounts.lean ====
/-
  The accumulator of one side as a contraction of match counts with the table.

  Summing, over the ten passes and the 4096 vocabulary words of each, the number of list positions whose clamped
  word is the vocabulary word times that word's table entry gives the sum of the table entries the list's active
  positions select.
-/
import proofs.«407513_j18287970746445_3_alg».proof.Proof.Spec
import proofs.«407513_j18287970746445_3_alg».proof.Proof.OneHot

noncomputable section

open scoped BigOperators

namespace Cert.Nnue

open Idealize.ShloMosaic Idealize.ShloMosaic.ValueIdx

/-- One side's accumulator `h` of position `b` is the contraction, over all 40960 vocabulary words taken in ten
    runs of 4096, of the counts of the list's clamped words with column `h` of the table. -/
theorem emb_of_counts (W : (⟨2, ![256, 40960]⟩ : Shape).Idx → EReal) (feat : (⟨2, ![8192, 32]⟩ : Shape).Idx → BitVec 32) (b : Fin 8192) (h : Fin 256) :
    ∑ k : Fin 10, ∑ v : Fin 4096, (∑ f : Fin 32, (if clipIdx (feat (ValueIdx.ix2 b f)) = BitVec.ofNat 32 (4096 * k.val + v.val) then (1 : EReal) else 0)) * W (ValueIdx.ix2 h ⟨4096 * k.val + v.val, by omega⟩)
      = emb W feat b h := by
  -- the counts contracted with column `h` are the sum over the positions whose clamped word is not negative
  rw [onehot_contract (fun n => W (ix2 h n)) (fun f => clipIdx (feat (ix2 b f))) (fun f => clipIdx_range _)]
  unfold emb
  refine Finset.sum_congr rfl fun f _ => ?_
  -- clamping changes neither whether a word is negative nor, for a word that is not, the row it selects
  by_cases hx : 0 ≤ (feat (ix2 b f)).toInt
  · rw [if_pos ((clipIdx_nonneg_iff _).2 hx), if_pos hx, rowOf_clipIdx _ hx]
  · rw [if_neg (fun hc => hx ((clipIdx_nonneg_iff _).1 hc)), if_neg hx]

end Cert.Nnue

end
-- ==== Proof.KernelBlocks.lean ====
/-
  Where the blocks of the call's windows sit in their arrays.

  The call runs over 32 grid points.  Three inputs and the output are cut along their first axis into 32 blocks of
  256 rows, the block at point t starting at row 256 t: element (r, f) of block t is element (256 t + r, f) of the
  array.  The other eight inputs are passed whole: their one block is the array, at every point.  The output's 32
  blocks are each written back, and together they cover its 8192 rows: row i lies in the block of point i / 256.
-/
import proofs.«407513_j18287970746445_3_alg».proof.Proof.Gen.KernelIdeal.Frame
import Idealize.ShloMosaic.Lib.Pipeline.Value
import Idealize.ShloMosaic.Lib.ValueIdx

set_option maxRecDepth 16384

noncomputable section

namespace Cert.Nnue

open Cert.KernelIdeal Cert.KernelIdeal.Gen Idealize.ShloMosaic Idealize.ShloMosaic.ValueIdx

variable {F : FTy → Type} [FloatOps F] (m : (ℓ : Loc nD τ sig) → Buf (Elt F) ℓ)

/-- The grid has 32 points. -/
theorem point_lt (t : Fin cfg0.N) : t.val < 32 := by
  have hN : cfg0.N = 32 := N_0
  have := t.isLt
  omega

/-! ## The block index of every window, at every point -/

theorem idx_rows0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_rows1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_rows2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx_rows11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem idx_whole3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_whole4 : ∀ t : Fin cfg0.N, win0_4.index t (0 : Fin 1) = 0 :=
  (by decide +kernel : ∀ t : Fin grid0.N, win0_4.index t (0 : Fin 1) = 0)
theorem idx_whole5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
theorem idx_whole6 : ∀ t : Fin cfg0.N, win0_6.index t (0 : Fin 1) = 0 :=
  (by decide +kernel : ∀ t : Fin grid0.N, win0_6.index t (0 : Fin 1) = 0)
theorem idx_whole7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx_whole8 : ∀ t : Fin cfg0.N, win0_8.index t (0 : Fin 1) = 0 :=
  (by decide +kernel : ∀ t : Fin grid0.N, win0_8.index t (0 : Fin 1) = 0)
theorem idx_whole9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
theorem idx_whole10 : ∀ t : Fin cfg0.N, win0_10.index t (0 : Fin 1) = 0 :=
  (by decide +kernel : ∀ t : Fin grid0.N, win0_10.index t (0 : Fin 1) = 0)

/-! ## The row blocks of the three cut inputs -/

theorem iblk0_apply (c : Dev nD) (t : Fin cfg0.N) (r : Fin 256) (f : Fin 32) (hb : 256 * t.val + r.val < 8192) :
    (iblk m c 0 t : Vec F S256x32 .i32) (ix2 r f)
      = (V m c main_v0 : Vec F S8192x32 .i32) (ix2 ⟨256 * t.val + r.val, hb⟩ f) := by
  obtain ⟨e0, e1⟩ := idx_rows0 t
  unfold iblk
  rw [View.read_apply]
  show V m c main_v0 _ = V m c main_v0 _
  congr 1
  funext a
  apply Fin.ext
  match a with
  | ⟨0, _⟩ => show win0_0.index t 0 * 256 + 1 * r.val = 256 * t.val + r.val; rw [e0]; omega
  | ⟨1, _⟩ => show win0_0.index t 1 * 32 + 1 * f.val = f.val; rw [e1]; omega

theorem iblk1_apply (c : Dev nD) (t : Fin cfg0.N) (r : Fin 256) (f : Fin 32) (hb : 256 * t.val + r.val < 8192) :
    (iblk m c 1 t : Vec F S256x32 .i32) (ix2 r f)
      = (V m c main_v1 : Vec F S8192x32 .i32) (ix2 ⟨256 * t.val + r.val, hb⟩ f) := by
  obtain ⟨e0, e1⟩ := idx_rows1 t
  unfold iblk
  rw [View.read_apply]
  show V m c main_v1 _ = V m c main_v1 _
  congr 1
  funext a
  apply Fin.ext
  match a with
  | ⟨0, _⟩ => show win0_1.index t 0 * 256 + 1 * r.val = 256 * t.val + r.val; rw [e0]; omega
  | ⟨1, _⟩ => show win0_1.index t 1 * 32 + 1 * f.val = f.val; rw [e1]; omega

theorem iblk2_apply (c : Dev nD) (t : Fin cfg0.N) (r : Fin 256) (hb : 256 * t.val + r.val < 8192) :
    (iblk m c 2 t : Vec F S256x1 .f32) (ix2 r 0)
      = (V m c main_v4 : Vec F S8192x1 .f32) (ix2 ⟨256 * t.val + r.val, hb⟩ 0) := by
  obtain ⟨e0, e1⟩ := idx_rows2 t
  unfold iblk
  rw [View.read_apply]
  show V m c main_v4 _ = V m c main_v4 _
  congr 1
  funext a
  apply Fin.ext
  match a with
  | ⟨0, _⟩ => show win0_2.index t 0 * 256 + 1 * r.val = 256 * t.val + r.val; rw [e0]; omega
  | ⟨1, _⟩ => show win0_2.index t 1 * 1 + 1 * 0 = 0; rw [e1]

/-! ## The inputs passed whole -/

theorem iblk3_eq (c : Dev nD) (t : Fin cfg0.N) : (iblk m c 3 t : Vec F S40960x256 .bf16) = V m c main_v3 := by
  obtain ⟨e0, e1⟩ := idx_whole3 t
  funext j
  unfold iblk
  rw [View.read_apply]
  show V m c main_v3 _ = V m c main_v3 j
  congr 1
  funext a
  apply Fin.ext
  match a with
  | ⟨0, _⟩ => show win0_3.index t 0 * 40960 + 1 * (j 0).val = (j 0).val; rw [e0]; omega
  | ⟨1, _⟩ => show win0_3.index t 1 * 256 + 1 * (j 1).val = (j 1).val; rw [e1]; omega

theorem iblk4_eq (c : Dev nD) (t : Fin cfg0.N) : (iblk m c 4 t : Vec F S256 .f32) = V m c main_arg4 := by
  have e0 := idx_whole4 t
  funext j
  unfold iblk
  rw [View.read_apply]
  show V m c main_arg4 _ = V m c main_arg4 j
  congr 1
  funext a
  apply Fin.ext
  match a with
  | ⟨0, _⟩ => show win0_4.index t 0 * 256 + 1 * (j 0).val = (j 0).val; rw [e0]; omega

theorem iblk5_eq (c : Dev nD) (t : Fin cfg0.N) : (iblk m c 5 t : Vec F S32x512 .f32) = V m c main_arg5 := by
  obtain ⟨e0, e1⟩ := idx_whole5 t
  funext j
  unfold iblk
  rw [View.read_apply]
  show V m c main_arg5 _ = V m c main_arg5 j
  congr 1
  funext a
  apply Fin.ext
  match a with
  | ⟨0, _⟩ => show win0_5.index t 0 * 32 + 1 * (j 0).val = (j 0).val; rw [e0]; omega
  | ⟨1, _⟩ => show win0_5.index t 1 * 512 + 1 * (j 1).val = (j 1).val; rw [e1]; omega

theorem iblk6_eq (c : Dev nD) (t : Fin cfg0.N) : (iblk m c 6 t : Vec F S32 .f32) = V m c main_arg6 := by
  have e0 := idx_whole6 t
  funext j
  unfold iblk
  rw [View.read_apply]
  show V m c main_arg6 _ = V m c main_arg6 j
  congr 1
  funext a
  apply Fin.ext
  match a with
  | ⟨0, _⟩ => show win0_6.index t 0 * 32 + 1 * (j 0).val = (j 0).val; rw [e0]; omega

theorem iblk7_eq (c : Dev nD) (t : Fin cfg0.N) : (iblk m c 7 t : Vec F S32x32 .f32) = V m c main_arg7 := by
  obtain ⟨e0, e1⟩ := idx_whole7 t
  funext j
  unfold iblk
  rw [View.read_apply]
  show V m c main_arg7 _ = V m c main_arg7 j
  congr 1
  funext a
  apply Fin.ext
  match a with
  | ⟨0, _⟩ => show win0_7.index t 0 * 32 + 1 * (j 0).val = (j 0).val; rw [e0]; omega
  | ⟨1, _⟩ => show win0_7.index t 1 * 32 + 1 * (j 1).val = (j 1).val; rw [e1]; omega

theorem iblk8_eq (c : Dev nD) (t : Fin cfg0.N) : (iblk m c 8 t : Vec F S32 .f32) = V m c main_arg8 := by
  have e0 := idx_whole8 t
  funext j
  unfold iblk
  rw [View.read_apply]
  show V m c main_arg8 _ = V m c main_arg8 j
  congr 1
  funext a
  apply Fin.ext
  match a with
  | ⟨0, _⟩ => show win0_8.index t 0 * 32 + 1 * (j 0).val = (j 0).val; rw [e0]; omega

theorem iblk9_eq (c : Dev nD) (t : Fin cfg0.N) : (iblk m c 9 t : Vec F S1x32 .f32) = V m c main_arg9 := by
  obtain ⟨e0, e1⟩ := idx_whole9 t
  funext j
  unfold iblk
  rw [View.read_apply]
  show V m c main_arg9 _ = V m c main_arg9 j
  congr 1
  funext a
  apply Fin.ext
  match a with
  | ⟨0, _⟩ => show win0_9.index t 0 * 1 + 1 * (j 0).val = (j 0).val; rw [e0]; omega
  | ⟨1, _⟩ => show win0_9.index t 1 * 32 + 1 * (j 1).val = (j 1).val; rw [e1]; omega

theorem iblk10_eq (c : Dev nD) (t : Fin cfg0.N) : (iblk m c 10 t : Vec F S1 .f32) = V m c main_arg10 := by
  have e0 := idx_whole10 t
  funext j
  unfold iblk
  rw [View.read_apply]
  show V m c main_arg10 _ = V m c main_arg10 j
  congr 1
  funext a
  apply Fin.ext
  match a with
  | ⟨0, _⟩ => show win0_10.index t 0 * 1 + 1 * (j 0).val = (j 0).val; rw [e0]; omega

/-! ## The output's blocks -/

/-- Element (r, 0) of the output block of point t is element (256 t + r, 0) of the output array. -/
theorem blk11_emb (t : Fin cfg0.N) (r : Fin 256) (hb : 256 * t.val + r.val < 8192) :
    ((cfg0.win 11).blk t).view.emb (ix2 r 0 : S256x1.Idx) = (ix2 ⟨256 * t.val + r.val, hb⟩ 0 : S8192x1.Idx) := by
  obtain ⟨e0, e1⟩ := idx_rows11 t
  funext a
  apply Fin.ext
  match a with
  | ⟨0, _⟩ => show win0_11.index t 0 * 256 + 1 * r.val = 256 * t.val + r.val; rw [e0]; omega
  | ⟨1, _⟩ => show win0_11.index t 1 * 1 + 1 * 0 = 0; rw [e1]

/-- Every element of the output array lies in the block of some point, and every point writes its block back. -/
theorem cover11 (c : Dev nD) (i : ((cfg0.win 11).arr.view.loc (c.tc : Thread nD τ)).2.ty.Idx) :
    ∃ t : Fin cfg0.N, (cfg0.win 11).flush t = true ∧ i ∈ ((cfg0.win 11).blk t).view.set := by
  have hN : cfg0.N = 32 := N_0
  have h0 : ((i 0 : Fin 8192) : Nat) < 8192 := (i 0).isLt
  have h1 : ((i 1 : Fin 1) : Nat) < 1 := (i 1).isLt
  let t : Fin cfg0.N := ⟨((i 0 : Fin 8192) : Nat) / 256, by omega⟩
  have ht : t.val = ((i 0 : Fin 8192) : Nat) / 256 := rfl
  obtain ⟨e0, e1⟩ := idx_rows11 t
  refine ⟨t, flush0_11 t, ?_⟩
  show i ∈ ((View.whole main_v5).slice (win0_11.rect t)).set
  rw [View.set_slice_whole, Rect.mem_set_unit]
  intro a
  match a with
  | ⟨0, _⟩ =>
    show win0_11.index t 0 * 256 ≤ ((i 0 : Fin 8192) : Nat) ∧ ((i 0 : Fin 8192) : Nat) < win0_11.index t 0 * 256 + 256
    rw [e0, ht]; omega
  | ⟨1, _⟩ =>
    show win0_11.index t 1 * 1 ≤ ((i 1 : Fin 1) : Nat) ∧ ((i 1 : Fin 1) : Nat) < win0_11.index t 1 * 1 + 1
    rw [e1]; omega

end Cert.Nnue

end
-- ==== Proof.KernelArray.lean ====
/-
  The idealized kernel's result as a function of its arguments.

  The region finds its arrays at simple functions of the arguments (the feature lists clamped into [-1, 40959], the
  table transposed, the side to move as a column).  Grid point `t` handles positions `256 t … 256 t + 255`: its
  output block is the network applied to the accumulators of those positions, and an accumulator after the ten passes
  is the sum of the table rows the position's active features select.  The 32 blocks tile the output column, and the
  program's result is that column reshaped to a vector.
-/
import proofs.«407513_j18287970746445_3_alg».proof.Proof.Gen.KernelIdeal.Frame
import proofs.«407513_j18287970746445_3_alg».proof.Proof.KernelBody
import proofs.«407513_j18287970746445_3_alg».proof.Proof.Spec
import proofs.«407513_j18287970746445_3_alg».proof.Proof.TailValue
import proofs.«407513_j18287970746445_3_alg».proof.Proof.AccValue
import proofs.«407513_j18287970746445_3_alg».proof.Proof.EmbCounts
import proofs.«407513_j18287970746445_3_alg».proof.Proof.KernelBlocks
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.Nnue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo Idealize.ShloMosaic.ValueIdx
open Idealize.ShloMosaic.Pipeline (Dat Cfg Window BodyObligation cellOf)
open Cert.KernelIdeal Cert.KernelIdeal.Gen

open scoped BigOperators

variable (m : (ℓ : Loc nD τ sig) → Buf (Elt Ideal) ℓ) (ρ : Dev nD → PrngReg)

/-! ## The arrays the region finds -/

/-- The white feature lists as the region finds them: each entry clamped into [-1, 40959]. -/
theorem V_v0 (c : Dev nD) : (V m c main_v0 : S8192x32.Idx → BitVec 32) = fun i => clipIdx (m ((c : Thread nD τ).loc main_arg0) i) := by
  dsimp only [V, V0]
  simp only [hostOps0, hostOps0_1, hostOps0_2, hostOps0_3, hostOps0_4, List.flatten_cons, List.flatten_nil, List.append_nil, List.cons_append, List.nil_append]
  after_results
  rfl

/-- The black feature lists likewise. -/
theorem V_v1 (c : Dev nD) : (V m c main_v1 : S8192x32.Idx → BitVec 32) = fun i => clipIdx (m ((c : Thread nD τ).loc main_arg1) i) := by
  dsimp only [V, V0]
  simp only [hostOps0, hostOps0_1, hostOps0_2, hostOps0_3, hostOps0_4, List.flatten_cons, List.flatten_nil, List.append_nil, List.cons_append, List.nil_append]
  after_results
  rfl

/-- The table as the region finds it: transposed (a change of float format is the identity on the extended reals). -/
theorem V_v3 (c : Dev nD) : (V m c main_v3 : S40960x256.Idx → EReal) = fun i => m ((c : Thread nD τ).loc main_arg3) (ix2 (i 1) (i 0)) := by
  dsimp only [V, V0]
  simp only [hostOps0, hostOps0_1, hostOps0_2, hostOps0_3, hostOps0_4, List.flatten_cons, List.flatten_nil, List.append_nil, List.cons_append, List.nil_append]
  after_results
  funext i
  rw [truncf_apply]
  exact transpose_apply [1, 0] _ transposes_S256x40960_S40960x256_1_0 i (ix2 (i 1) (i 0)) (fun b => match b with
    | ⟨0, _⟩ => rfl
    | ⟨1, _⟩ => rfl)

/-- The side to move as a column. -/
theorem V_v4 (c : Dev nD) : (V m c main_v4 : S8192x1.Idx → EReal) = fun i => m ((c : Thread nD τ).loc main_arg2) (ix1 (i 0)) := by
  dsimp only [V, V0]
  simp only [hostOps0, hostOps0_1, hostOps0_2, hostOps0_3, hostOps0_4, List.flatten_cons, List.flatten_nil, List.append_nil, List.cons_append, List.nil_append]
  after_results
  funext i
  exact broadcastInDim_apply _ bcast_S8192_S8192x1_0 _ i (ix1 (i 0)) (fun a => match a with
    | ⟨0, _⟩ => by show (i 0).val = if (8192 : Nat) = 1 then 0 else (i 0).val; rw [if_neg (by decide)])

/-! ## What one grid point writes back -/

/-- The output array the blocks are blocks of: each position's output, as a column. -/
def outCol (c : Dev nD) : S8192x1.Idx → EReal := fun i =>
  outRow (m ((c : Thread nD τ).loc main_arg2) (ix1 (i 0)))
    (emb (m ((c : Thread nD τ).loc main_arg3)) (m ((c : Thread nD τ).loc main_arg0)) (i 0))
    (emb (m ((c : Thread nD τ).loc main_arg3)) (m ((c : Thread nD τ).loc main_arg1)) (i 0))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10))

/-- Point `t`'s output block is `tailPay` of the accumulator after the ten passes over the point's blocks. -/
theorem outsAt_eq (c : Dev nD) (t : Fin cfg0.N) :
    outsAt0 m c t = tailPay (accAt (iblk m c 0 t) (iblk m c 1 t) (iblk m c 3 t) k0_t1_loop.trips) (iblk m c 2 t) (iblk m c 4 t)
      (iblk m c 5 t) (iblk m c 6 t) (iblk m c 7 t) (iblk m c 8 t) (iblk m c 9 t) (iblk m c 10 t) :=
  out0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t)

/-- A white row's accumulator after the ten passes is the sum of the table rows its active features select. -/
theorem acc_white (c : Dev nD) (t : Fin cfg0.N) (r : Fin 256) (hb : 256 * t.val + r.val < 8192) (h : Fin 256) :
    accAt (F := Ideal) (iblk m c 0 t) (iblk m c 1 t) (iblk m c 3 t) k0_t1_loop.trips (ix2 ⟨r.val, by omega⟩ h)
      = emb (m ((c : Thread nD τ).loc main_arg3)) (m ((c : Thread nD τ).loc main_arg0)) ⟨256 * t.val + r.val, hb⟩ h := by
  rw [accAt_apply, ← emb_of_counts]
  refine Finset.sum_congr rfl fun k _ => Finset.sum_congr rfl fun v _ => ?_
  have hs : ∀ f : Fin 32, stacked (iblk m c 0 t) (iblk m c 1 t) ⟨r.val, by omega⟩ f
      = clipIdx (m ((c : Thread nD τ).loc main_arg0) (ix2 ⟨256 * t.val + r.val, hb⟩ f)) := by
    intro f
    unfold stacked
    rw [dif_pos (show (⟨r.val, by omega⟩ : Fin 512).val < 256 from r.isLt)]
    exact (iblk0_apply m c t r f hb).trans (congrFun (V_v0 m c) _)
  have hw : (iblk m c 3 t : S40960x256.Idx → EReal) (ix2 ⟨4096 * k.val + v.val, by omega⟩ h)
      = m ((c : Thread nD τ).loc main_arg3) (ix2 h ⟨4096 * k.val + v.val, by omega⟩) := by
    rw [iblk3_eq m c t, V_v3]; rfl
  rw [hw]
  simp only [hs]

/-- A black row's accumulator likewise. -/
theorem acc_black (c : Dev nD) (t : Fin cfg0.N) (r : Fin 256) (hb : 256 * t.val + r.val < 8192) (h : Fin 256) :
    accAt (F := Ideal) (iblk m c 0 t) (iblk m c 1 t) (iblk m c 3 t) k0_t1_loop.trips (ix2 ⟨r.val + 256, by omega⟩ h)
      = emb (m ((c : Thread nD τ).loc main_arg3)) (m ((c : Thread nD τ).loc main_arg1)) ⟨256 * t.val + r.val, hb⟩ h := by
  rw [accAt_apply, ← emb_of_counts]
  refine Finset.sum_congr rfl fun k _ => Finset.sum_congr rfl fun v _ => ?_
  have hs : ∀ f : Fin 32, stacked (iblk m c 0 t) (iblk m c 1 t) ⟨r.val + 256, by omega⟩ f
      = clipIdx (m ((c : Thread nD τ).loc main_arg1) (ix2 ⟨256 * t.val + r.val, hb⟩ f)) := by
    intro f
    unfold stacked
    rw [dif_neg (show ¬ (⟨r.val + 256, by omega⟩ : Fin 512).val < 256 from by simp)]
    have hr : (⟨(⟨r.val + 256, by omega⟩ : Fin 512).val - 256, by simp⟩ : Fin 256) = r := Fin.ext (by simp)
    rw [hr]
    exact (iblk1_apply m c t r f hb).trans (congrFun (V_v1 m c) _)
  have hw : (iblk m c 3 t : S40960x256.Idx → EReal) (ix2 ⟨4096 * k.val + v.val, by omega⟩ h)
      = m ((c : Thread nD τ).loc main_arg3) (ix2 h ⟨4096 * k.val + v.val, by omega⟩) := by
    rw [iblk3_eq m c t, V_v3]; rfl
  rw [hw]
  simp only [hs]

/-- Row `r` of point `t`'s output block is position `256 t + r`'s output. -/
theorem point_value (c : Dev nD) (t : Fin cfg0.N) (r : Fin 256) (hb : 256 * t.val + r.val < 8192) :
    (outsAt0 m c t : S256x1.Idx → EReal) (ix2 r 0) = outCol m c (ix2 ⟨256 * t.val + r.val, hb⟩ 0) := by
  rw [outsAt_eq, tailPay_apply]
  unfold outCol
  have e2 : (iblk m c 2 t : S256x1.Idx → EReal) (ix2 r 0) = m ((c : Thread nD τ).loc main_arg2) (ix1 ⟨256 * t.val + r.val, hb⟩) :=
    (iblk2_apply m c t r hb).trans (congrFun (V_v4 m c) _)
  have eW : (fun h => accAt (F := Ideal) (iblk m c 0 t) (iblk m c 1 t) (iblk m c 3 t) k0_t1_loop.trips (ix2 ⟨r.val, by omega⟩ h))
      = emb (m ((c : Thread nD τ).loc main_arg3)) (m ((c : Thread nD τ).loc main_arg0)) ⟨256 * t.val + r.val, hb⟩ :=
    funext fun h => acc_white m c t r hb h
  have eB : (fun h => accAt (F := Ideal) (iblk m c 0 t) (iblk m c 1 t) (iblk m c 3 t) k0_t1_loop.trips (ix2 ⟨r.val + 256, by omega⟩ h))
      = emb (m ((c : Thread nD τ).loc main_arg3)) (m ((c : Thread nD τ).loc main_arg1)) ⟨256 * t.val + r.val, hb⟩ :=
    funext fun h => acc_black m c t r hb h
  rw [e2, eW, eB, iblk4_eq m c t, iblk5_eq m c t, iblk6_eq m c t, iblk7_eq m c t, iblk8_eq m c t, iblk9_eq m c t, iblk10_eq m c t,
    V_main_arg4, V_main_arg5, V_main_arg6, V_main_arg7, V_main_arg8, V_main_arg9, V_main_arg10]

/-! ## The output array and the result -/

/-- What point `t` writes back is block `t` of the output column. -/
theorem flushed_eq (c : Dev nD) (t : Fin cfg0.N) (_hf : (cfg0.win 11).flush t = true) :
    (dats m 0 c).flushed 11 t = ((cfg0.win 11).blk t).view.read (Elt Ideal) (outCol m c) := by
  show (cfg0.win 11).cut (grid0.coords t) ((dats m 0 c).after 11 t) = _
  rw [after0_11]
  refine funext fun (j : S256x1.Idx) => ?_
  have hj : j = (ix2 (j 0) 0 : S256x1.Idx) := by
    funext a
    match a with
    | ⟨0, _⟩ => rfl
    | ⟨1, _⟩ => exact Fin.ext (by have h1 : (j 1).val < 1 := (j 1).isLt; show (j 1).val = 0; omega)
  have hb : 256 * t.val + (j 0).val < 8192 := by
    have := point_lt t; have h0 : (j 0).val < 256 := (j 0).isLt; omega
  rw [hj]
  show (outsAt0 m c t : S256x1.Idx → EReal) (ix2 (j 0) 0) = outCol m c (((cfg0.win 11).blk t).view.emb (ix2 (j 0) 0 : S256x1.Idx))
  rw [blk11_emb t (j 0) hb]
  exact point_value m c t (j 0) hb

/-- The blocks tile the output array: after the run it is the output column. -/
theorem final_out (c : Dev nD) : (dats m 0 c).arrAt 11 cfg0.N = outCol m c :=
  (dats m 0 c).arrAt_eq_of_cover 11 (outCol m c) (flushed_eq m c) (cover11 c)

/-- The program's result: the output column reshaped to a vector is the specification. -/
theorem tail_eq (c : Dev nD) :
    Pipeline.afterTail₀ cfgs (dats m) 0 (V0 m) [hostOps1] c main_v6
      = Cert.Nnue.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) := by
  unfold Pipeline.afterTail₀
  show StableHlo.after hostOps1 _ (Proc.devRef .tc main_v6) = _
  after_results
  have hw : Pipeline.withArrays (cfgs 0).spec c (V0 m c) (fun w => (dats m 0 c).arrAt w (cfgs 0).N) (Proc.devRef .tc main_v5) = outCol m c :=
    (Pipeline.withArrays_arr spec0 launch0.win.arr_inj c _ _ 11).trans (final_out m c)
  rw [hw]
  funext i
  show shapeCast S8192 (outCol m c) shapeCasts_S8192x1_S8192 i = _
  rw [shapeCast_apply (outCol m c) shapeCasts_S8192x1_S8192 i (ix2 (i 0) 0)
    (by rewrite [Shape.rowMajor_val_two, Shape.rowMajor_val_one]; show (i 0).val * 1 + 0 = (i 0).val; omega)]
  rfl

/-- The idealized kernel's run: it ends with its result at the specification and its arguments as they were. -/
theorem kernel_run : θ_run defs (onTc (τ := τ) (main (F := Ideal))) ⟨m, fun _ => 0, ρ⟩ (fun r => ∀ c : Dev nD,
      r.2.mem ((c.tc : Thread nD τ).loc main_v6)
        = Cert.Nnue.result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v6 (Pipeline.mem_restRefs_of main_v6 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c)))⟩)
    (run_main m ρ)

end Cert.Nnue

end
-- ==== Proof.RefValue.lean ====
/-
  The reference program's result, entry by entry, is the specification's.

  For each position and each side the reference clamps every feature index into the table's rows, gathers the table's
  row it selects, multiplies it by the mask of the non-negative (active) indices, and sums over the feature list: that
  sum is the side's accumulator.  Bias and clipping to [0, 127] give the hidden values; the side to move weights the two
  sides into the network's 512 inputs (two blocks of 256 joined along the columns); three contractions with their biases,
  the first two rectified, give the pre-activation, and 1 / (1 + exp (-x)) of it is the output.
-/
import proofs.«407513_j18287970746445_3_alg».proof.Proof.Gen.ReferenceIdeal.Read
import proofs.«407513_j18287970746445_3_alg».proof.Proof.Spec
import Idealize.ShloMosaic.Lib.Pipeline.Value
import Idealize.ShloMosaic.Lib.ValueIdx
import Idealize.ShloMosaic.Lib.IdealHost
import Idealize.ShloMosaic.Lib.WordArith
import Idealize.ShloMosaic.PureOps.Ideal
import Idealize.ShloMosaic.PureOps.Ideal.Laws

noncomputable section

namespace Cert.Nnue.Ref

open Cert.ReferenceIdeal Cert.ReferenceIdeal.Gen Cert.ReferenceIdeal.Read Idealize.ShloMosaic Idealize.ShloMosaic.ValueIdx
open scoped BigOperators

/-! ## The gather, read at an index

The gather takes, for the result entry (b, f, h), the one start index at (b, f, 0), reads it signed, clamps it into
the table's rows, and returns the table's entry in that row and column h. -/

/-- The result entry (b, f, h) reads its one start-index component at (b, f, 0) of the start indices. -/
theorem gather_siIdx (b : Fin 8192) (f : Fin 32) (h : Fin 256) :
    gather_S40960x256_S8192x32x1_S8192x32x256_2_0_n_n_0_2_1256.siIdx (ix3 b f h)
      ⟨List.idxOf (0 : Fin 2) gather_S40960x256_S8192x32x1_S8192x32x256_2_0_n_n_0_2_1256.startIndexMap,
        List.idxOf_lt_length_iff.2 (List.mem_singleton.mpr rfl)⟩ = ix3 b f 0 := by
  funext a; refine Fin.ext ?_
  match a with
  | ⟨0, _⟩ => rfl
  | ⟨1, _⟩ => rfl
  | ⟨2, _⟩ => rfl

/-- On the table's row axis the operand index is the clamped start alone: the axis is collapsed (no offset
    coordinate), there is no batching axis, and the slice size 1 leaves the clamp's upper bound at the last row. -/
theorem gather_operandIdx_row (idx : IVec S8192x32x1 32) (b : Fin 8192) (f : Fin 32) (h : Fin 256) :
    (gather_S40960x256_S8192x32x1_S8192x32x256_2_0_n_n_0_2_1256.operandIdx (ix3 b f h) idx 0).val
      = (rowOf (idx (ix3 b f 0))).val := by
  show gather_S40960x256_S8192x32x1_S8192x32x256_2_0_n_n_0_2_1256.start (ix3 b f h) idx 0
    + gather_S40960x256_S8192x32x1_S8192x32x256_2_0_n_n_0_2_1256.batchCoord (ix3 b f h) 0
    + gather_S40960x256_S8192x32x1_S8192x32x256_2_0_n_n_0_2_1256.offCoord (ix3 b f h) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S40960x256_S8192x32x1_S8192x32x256_2_0_n_n_0_2_1256.startIndexMap from
    List.mem_singleton.mpr rfl)]
  rw [gather_siIdx b f h]
  rfl

/-- On the table's column axis, which the start index does not name, the operand index is the offset coordinate
    alone: the result's last coordinate. -/
theorem gather_operandIdx_col (idx : IVec S8192x32x1 32) (b : Fin 8192) (f : Fin 32) (h : Fin 256) :
    (gather_S40960x256_S8192x32x1_S8192x32x256_2_0_n_n_0_2_1256.operandIdx (ix3 b f h) idx 1).val = h.val := by
  show gather_S40960x256_S8192x32x1_S8192x32x256_2_0_n_n_0_2_1256.start (ix3 b f h) idx 1
    + gather_S40960x256_S8192x32x1_S8192x32x256_2_0_n_n_0_2_1256.batchCoord (ix3 b f h) 1
    + gather_S40960x256_S8192x32x1_S8192x32x256_2_0_n_n_0_2_1256.offCoord (ix3 b f h) 1 = _
  rw [GatherDims.batchCoord_eq_zero _ _ _ List.not_mem_nil]
  unfold GatherDims.start
  rw [dif_neg (show ¬ (1 : Fin 2) ∈ gather_S40960x256_S8192x32x1_S8192x32x256_2_0_n_n_0_2_1256.startIndexMap from
    fun h => absurd (congrArg Fin.val (List.mem_singleton.mp h)) Nat.one_ne_zero)]
  simp only [Nat.add_zero, Nat.zero_add]
  rfl

/-- The gather read at (b, f, h): the table at the row the start index (b, f, 0) selects, column h. -/
theorem gather_apply {α : Type} (x : S40960x256.Idx → α) (idx : IVec S8192x32x1 32)
    (b : Fin 8192) (f : Fin 32) (h : Fin 256) :
    Host.gather gather_S40960x256_S8192x32x1_S8192x32x256_2_0_n_n_0_2_1256 x idx (ix3 b f h)
      = x (ix2 (rowOf (idx (ix3 b f 0))) h) := by
  unfold Host.gather
  congr 1
  funext a
  refine Fin.ext ?_
  match a with
  | ⟨0, _⟩ => exact gather_operandIdx_row idx b f h
  | ⟨1, _⟩ => exact gather_operandIdx_col idx b f h

/-! ## The start index: the feature clamped into the table's rows

The clamp into [0, 40959] leaves a non-negative word, so the wrap of negative indices (add 40960 when negative) does
nothing; and on a non-negative feature the clamped word selects the same row as the feature itself. -/

/-- The feature clamped into [0, 40959], signed. -/
def clip0 (x : BitVec 32) : BitVec 32 := IntOp.minsi 40959#32 (IntOp.maxsi 0#32 x)

theorem toInt_clip0 (x : BitVec 32) : (clip0 x).toInt = min 40959 (max 0 x.toInt) := by
  have h1 : (40959#32 : BitVec 32).toInt = 40959 := by decide
  have hm : (IntOp.maxsi 0#32 x).toInt = max 0 x.toInt := WordArith.toInt_maxsi_zero x
  unfold clip0 IntOp.minsi
  by_cases h : (40959#32 : BitVec 32).slt (IntOp.maxsi 0#32 x) = true
  · rw [if_pos h]; rw [BitVec.slt_iff_toInt_lt] at h; omega
  · rw [if_neg h]; rw [BitVec.slt_iff_toInt_lt] at h; omega

/-- The wrap of a negative index does nothing to the clamped word, which is not negative. -/
theorem wrap_clip0 (x : BitVec 32) :
    Scalar.select (IntOp.cmpi .slt (clip0 x) 0#32) (IntOp.addi (clip0 x) 40960#32) (clip0 x) = clip0 x := by
  have hc := toInt_clip0 x
  have h0 : (0#32 : BitVec 32).toInt = 0 := by decide
  have hn : (clip0 x).slt 0#32 = false := by
    rw [Bool.eq_false_iff]; intro h; rw [BitVec.slt_iff_toInt_lt] at h; omega
  show (if BitVec.ofBool ((clip0 x).slt 0#32) = 1 then IntOp.addi (clip0 x) 40960#32 else clip0 x) = clip0 x
  rw [hn]; exact if_neg (by decide)

/-- On a non-negative feature the clamped word selects the feature's own row. -/
theorem rowOf_clip0 (x : BitVec 32) (hx : 0 ≤ x.toInt) : rowOf (clip0 x) = rowOf x := by
  refine Fin.ext ?_
  show min (clip0 x).toInt.toNat 40959 = min x.toInt.toNat 40959
  rw [toInt_clip0]; omega

/-- The mask as a number: one on a non-negative feature, zero on a negative one. -/
theorem mask_apply (x : BitVec 32) :
    (FloatOps.uitofp (F := Ideal) .f32 (IntOp.cmpi .sge x 0#32) : EReal) = if 0 ≤ x.toInt then 1 else 0 := by
  have h0 : (0#32 : BitVec 32).toInt = 0 := by decide
  show (((BitVec.ofBool ((0#32 : BitVec 32).sle x)).toNat : ℝ) : EReal) = _
  by_cases h : 0 ≤ x.toInt
  · have hs : (0#32 : BitVec 32).sle x = true := by rw [BitVec.sle_iff_toInt_le]; omega
    rw [hs, if_pos h]; simp
  · have hs : (0#32 : BitVec 32).sle x = false := by
      rw [Bool.eq_false_iff]; intro h'; rw [BitVec.sle_iff_toInt_le] at h'; omega
    rw [hs, if_neg h]; simp

/-! ## One side's accumulators -/

section Side
variable (x0 x1 : (⟨S8192x32, .i32⟩ : BufTy).Contents (Elt Ideal)) (x3 : (⟨S256x40960, .f32⟩ : BufTy).Contents (Elt Ideal))
  (x4 : (⟨S256, .f32⟩ : BufTy).Contents (Elt Ideal))

theorem idx_v0 (r : Fin 40960) (h : Fin 256) : idx_main_v0 (ix2 r h) = ix2 h r := by
  funext a; match a with | ⟨0, _⟩ => rfl | ⟨1, _⟩ => rfl
theorem idx_v9 (b : Fin 8192) (f : Fin 32) : idx_main_v9 (ix3 b f 0) = ix2 b f := by
  funext a; match a with | ⟨0, _⟩ => rfl | ⟨1, _⟩ => rfl
theorem idx_v11_v13 (b : Fin 8192) (f : Fin 32) (h : Fin 256) : idx_main_v11 (idx_main_v13 (ix3 b f h)) = ix2 b f := by
  funext a; match a with | ⟨0, _⟩ => rfl | ⟨1, _⟩ => rfl
theorem idx_v15 (b : Fin 8192) (h : Fin 256) (k : Fin 32) : idx_main_v15 (ix2 b h) k = ix3 b k h := by
  funext a; match a with | ⟨0, _⟩ => rfl | ⟨1, _⟩ => rfl | ⟨2, _⟩ => rfl
theorem idx_v16_v17 (b : Fin 8192) (h : Fin 256) : idx_main_v16 (idx_main_v17 (ix2 b h)) = ix1 h := by
  funext a; match a with | ⟨0, _⟩ => rfl

/-- The clamped feature. -/
theorem v3_apply (b : Fin 8192) (f : Fin 32) : val_main_v3 (F := Ideal) x0 (ix2 b f) = clip0 (x0 (ix2 b f)) := by
  rw [val_main_v3_apply, val_main_call0_v4_apply, val_main_call0_v3_apply, val_main_c_1_apply,
    val_main_call0_v2_apply, val_main_call0_v1_apply, val_main_call0_v0_apply, val_main_c_0_apply]
  rfl

/-- The start index: the wrap leaves the clamped feature as it is. -/
theorem v8_apply (b : Fin 8192) (f : Fin 32) : val_main_v8 (F := Ideal) x0 (ix2 b f) = clip0 (x0 (ix2 b f)) := by
  rw [val_main_v8_apply, val_main_v5_apply, val_main_v7_apply, val_main_v4_apply, val_main_c_2_apply,
    val_main_v6_apply, val_main_c_3_apply, v3_apply]
  exact wrap_clip0 _

/-- The gathered entry: the table's column h (the table is stored transposed) at the row of the clamped feature. -/
theorem v10_apply (b : Fin 8192) (f : Fin 32) (h : Fin 256) :
    val_main_v10 (F := Ideal) x0 x3 (ix3 b f h) = x3 (ix2 h (rowOf (clip0 (x0 (ix2 b f))))) := by
  unfold val_main_v10
  rw [gather_apply, val_main_v0_apply, idx_v0, val_main_v9_apply, idx_v9, v8_apply]

/-- The mask, broadcast along the columns. -/
theorem v13_apply (b : Fin 8192) (f : Fin 32) (h : Fin 256) :
    val_main_v13 (F := Ideal) x0 (ix3 b f h) = if 0 ≤ (x0 (ix2 b f)).toInt then (1 : EReal) else 0 := by
  rw [val_main_v13_apply, val_main_v12_apply, val_main_v11_apply, idx_v11_v13, val_main_v2_apply, val_main_v1_apply,
    val_main_c_apply]
  exact mask_apply _

/-- The masked gathered entry: the table's entry on an active feature, zero on padding. -/
theorem v14_apply (b : Fin 8192) (f : Fin 32) (h : Fin 256) :
    val_main_v14 (F := Ideal) x0 x3 (ix3 b f h)
      = if 0 ≤ (x0 (ix2 b f)).toInt then x3 (ix2 h (rowOf (x0 (ix2 b f)))) else 0 := by
  rw [val_main_v14_apply, v10_apply, v13_apply, Ideal.mulf_def]
  by_cases hx : 0 ≤ (x0 (ix2 b f)).toInt
  · rw [if_pos hx, if_pos hx, mul_one, rowOf_clip0 _ hx]
  · rw [if_neg hx, if_neg hx, mul_zero]

/-- The sum over the feature list is the accumulator. -/
theorem v15_apply (b : Fin 8192) (h : Fin 256) : val_main_v15 (F := Ideal) x0 x3 (ix2 b h) = emb x3 x0 b h := by
  rw [val_main_v15_apply, val_main_cst_apply, Ideal.ofBits_def, Ideal.ofBits_zero_f32, zero_add]
  unfold emb
  refine Finset.sum_congr rfl fun k _ => ?_
  rw [idx_v15, v14_apply]

/-- The accumulator with its bias. -/
theorem v18_apply (b : Fin 8192) (h : Fin 256) :
    val_main_v18 (F := Ideal) x0 x3 x4 (ix2 b h) = emb x3 x0 b h + x4 (ix1 h) := by
  rw [val_main_v18_apply, v15_apply, val_main_v17_apply, val_main_v16_apply, idx_v16_v17, Ideal.addf_def]

/-- The clipped accumulator. -/
theorem v37_apply (b : Fin 8192) (h : Fin 256) :
    val_main_v37 (F := Ideal) x0 x3 x4 (ix2 b h) = hiddenRow x4 (emb x3 x0 b) h := by
  rw [val_main_v37_apply, val_main_call2_v4_apply, val_main_call2_v3_apply, val_main_cst_11_apply,
    val_main_call2_v2_apply, val_main_call2_v1_apply, val_main_call2_v0_apply, val_main_cst_10_apply, v18_apply]
  rfl

/-- The other side's clamped feature. -/
theorem v21_apply (b : Fin 8192) (f : Fin 32) : val_main_v21 (F := Ideal) x1 (ix2 b f) = clip0 (x1 (ix2 b f)) := by
  rw [val_main_v21_apply, val_main_call1_v4_apply, val_main_call1_v3_apply, val_main_c_6_apply,
    val_main_call1_v2_apply, val_main_call1_v1_apply, val_main_call1_v0_apply, val_main_c_5_apply]
  rfl

theorem v26_apply (b : Fin 8192) (f : Fin 32) : val_main_v26 (F := Ideal) x1 (ix2 b f) = clip0 (x1 (ix2 b f)) := by
  rw [val_main_v26_apply, val_main_v23_apply, val_main_v25_apply, val_main_v22_apply, val_main_c_7_apply,
    val_main_v24_apply, val_main_c_8_apply, v21_apply]
  exact wrap_clip0 _

theorem idx_v27 (b : Fin 8192) (f : Fin 32) : idx_main_v27 (ix3 b f 0) = ix2 b f := by
  funext a; match a with | ⟨0, _⟩ => rfl | ⟨1, _⟩ => rfl
theorem idx_v29_v31 (b : Fin 8192) (f : Fin 32) (h : Fin 256) : idx_main_v29 (idx_main_v31 (ix3 b f h)) = ix2 b f := by
  funext a; match a with | ⟨0, _⟩ => rfl | ⟨1, _⟩ => rfl
theorem idx_v33 (b : Fin 8192) (h : Fin 256) (k : Fin 32) : idx_main_v33 (ix2 b h) k = ix3 b k h := by
  funext a; match a with | ⟨0, _⟩ => rfl | ⟨1, _⟩ => rfl | ⟨2, _⟩ => rfl
theorem idx_v34_v35 (b : Fin 8192) (h : Fin 256) : idx_main_v34 (idx_main_v35 (ix2 b h)) = ix1 h := by
  funext a; match a with | ⟨0, _⟩ => rfl

theorem v28_apply (b : Fin 8192) (f : Fin 32) (h : Fin 256) :
    val_main_v28 (F := Ideal) x1 x3 (ix3 b f h) = x3 (ix2 h (rowOf (clip0 (x1 (ix2 b f))))) := by
  unfold val_main_v28
  rw [gather_apply, val_main_v0_apply, idx_v0, val_main_v27_apply, idx_v27, v26_apply]

theorem v31_apply (b : Fin 8192) (f : Fin 32) (h : Fin 256) :
    val_main_v31 (F := Ideal) x1 (ix3 b f h) = if 0 ≤ (x1 (ix2 b f)).toInt then (1 : EReal) else 0 := by
  rw [val_main_v31_apply, val_main_v30_apply, val_main_v29_apply, idx_v29_v31, val_main_v20_apply, val_main_v19_apply,
    val_main_c_4_apply]
  exact mask_apply _

theorem v32_apply (b : Fin 8192) (f : Fin 32) (h : Fin 256) :
    val_main_v32 (F := Ideal) x1 x3 (ix3 b f h)
      = if 0 ≤ (x1 (ix2 b f)).toInt then x3 (ix2 h (rowOf (x1 (ix2 b f)))) else 0 := by
  rw [val_main_v32_apply, v28_apply, v31_apply, Ideal.mulf_def]
  by_cases hx : 0 ≤ (x1 (ix2 b f)).toInt
  · rw [if_pos hx, if_pos hx, mul_one, rowOf_clip0 _ hx]
  · rw [if_neg hx, if_neg hx, mul_zero]

theorem v33_apply (b : Fin 8192) (h : Fin 256) : val_main_v33 (F := Ideal) x1 x3 (ix2 b h) = emb x3 x1 b h := by
  rw [val_main_v33_apply, val_main_cst_9_apply, Ideal.ofBits_def, Ideal.ofBits_zero_f32, zero_add]
  unfold emb
  refine Finset.sum_congr rfl fun k _ => ?_
  rw [idx_v33, v32_apply]

theorem v36_apply (b : Fin 8192) (h : Fin 256) :
    val_main_v36 (F := Ideal) x1 x3 x4 (ix2 b h) = emb x3 x1 b h + x4 (ix1 h) := by
  rw [val_main_v36_apply, v33_apply, val_main_v35_apply, val_main_v34_apply, idx_v34_v35, Ideal.addf_def]

theorem v38_apply (b : Fin 8192) (h : Fin 256) :
    val_main_v38 (F := Ideal) x1 x3 x4 (ix2 b h) = hiddenRow x4 (emb x3 x1 b) h := by
  rw [val_main_v38_apply, val_main_call3_v4_apply, val_main_call3_v3_apply, val_main_cst_13_apply,
    val_main_call3_v2_apply, val_main_call3_v1_apply, val_main_call3_v0_apply, val_main_cst_12_apply, v36_apply]
  rfl

end Side

/-! ## The side to move's mix, the network's inputs, and the network -/

section Net
variable (x0 x1 : (⟨S8192x32, .i32⟩ : BufTy).Contents (Elt Ideal)) (x2 : (⟨S8192, .f32⟩ : BufTy).Contents (Elt Ideal))
  (x3 : (⟨S256x40960, .f32⟩ : BufTy).Contents (Elt Ideal)) (x4 : (⟨S256, .f32⟩ : BufTy).Contents (Elt Ideal))
  (x5 : (⟨S32x512, .f32⟩ : BufTy).Contents (Elt Ideal)) (x6 : (⟨S32, .f32⟩ : BufTy).Contents (Elt Ideal))
  (x7 : (⟨S32x32, .f32⟩ : BufTy).Contents (Elt Ideal)) (x8 : (⟨S32, .f32⟩ : BufTy).Contents (Elt Ideal))
  (x9 : (⟨S1x32, .f32⟩ : BufTy).Contents (Elt Ideal)) (x10 : (⟨S1, .f32⟩ : BufTy).Contents (Elt Ideal))

theorem idx_v39_v40 (b : Fin 8192) (h : Fin 256) : idx_main_v39 (idx_main_v40 (ix2 b h)) = ix1 b := by
  funext a; match a with | ⟨0, _⟩ => rfl
theorem idx_v39_v44 (b : Fin 8192) (h : Fin 256) : idx_main_v39 (idx_main_v44 (ix2 b h)) = ix1 b := by
  funext a; match a with | ⟨0, _⟩ => rfl
theorem idx_v39_v47 (b : Fin 8192) (h : Fin 256) : idx_main_v39 (idx_main_v47 (ix2 b h)) = ix1 b := by
  funext a; match a with | ⟨0, _⟩ => rfl
theorem idx_v39_v51 (b : Fin 8192) (h : Fin 256) : idx_main_v39 (idx_main_v51 (ix2 b h)) = ix1 b := by
  funext a; match a with | ⟨0, _⟩ => rfl

/-- The mover's view: the side to move's weight on the first side, the rest on the second. -/
theorem v46_apply (b : Fin 8192) (h : Fin 256) :
    val_main_v46 (F := Ideal) x0 x1 x2 x3 x4 (ix2 b h)
      = mixRow (x2 (ix1 b)) (hiddenRow x4 (emb x3 x0 b)) (hiddenRow x4 (emb x3 x1 b)) h := by
  rw [val_main_v46_apply, val_main_v41_apply, val_main_v40_apply, val_main_v39_apply, idx_v39_v40, v37_apply,
    val_main_v45_apply, val_main_v44_apply, val_main_v43_apply, val_main_v42_apply, val_main_cst_14_apply,
    val_main_v39_apply, idx_v39_v44, v38_apply]
  rfl

/-- The opponent's view: the same weights with the sides exchanged. -/
theorem v53_apply (b : Fin 8192) (h : Fin 256) :
    val_main_v53 (F := Ideal) x0 x1 x2 x3 x4 (ix2 b h)
      = mixRow (x2 (ix1 b)) (hiddenRow x4 (emb x3 x1 b)) (hiddenRow x4 (emb x3 x0 b)) h := by
  rw [val_main_v53_apply, val_main_v48_apply, val_main_v47_apply, val_main_v39_apply, idx_v39_v47, v38_apply,
    val_main_v52_apply, val_main_v51_apply, val_main_v50_apply, val_main_v49_apply, val_main_cst_15_apply,
    val_main_v39_apply, idx_v39_v51, v37_apply]
  rfl

/-- The two views joined along the columns are the network's inputs. -/
theorem v54_apply (b : Fin 8192) (j : Fin 512) :
    val_main_v54 (F := Ideal) x0 x1 x2 x3 x4 (ix2 b j)
      = inputsRow (x2 (ix1 b)) (emb x3 x0 b) (emb x3 x1 b) x4 j := by
  unfold val_main_v54 inputsRow
  by_cases hj : j.val < 256
  · rw [dif_pos hj]
    rw [concatenate_pair_apply_left (t := S8192x512) (s₁ := S8192x256) (s₂ := S8192x256) (1 : Fin 2) _ _
      concatenates_S8192x256_S8192x256_S8192x512_d1 (ix2 b j) rfl
      (ix2 b (⟨j.val, hj⟩ : Fin 256) : S8192x256.Idx) (fun a => by match a with | ⟨0, _⟩ => rfl | ⟨1, _⟩ => rfl)]
    exact v46_apply x0 x1 x2 x3 x4 b ⟨j.val, hj⟩
  · rw [dif_neg hj]
    have hj2 : j.val - 256 < 256 := by have := j.isLt; omega
    rw [concatenate_pair_apply_right (t := S8192x512) (s₁ := S8192x256) (s₂ := S8192x256) (1 : Fin 2) _ _
      concatenates_S8192x256_S8192x256_S8192x512_d1 (ix2 b j) rfl rfl
      (ix2 b (⟨j.val - 256, hj2⟩ : Fin 256) : S8192x256.Idx)
      (fun a hne => by match a, hne with | ⟨0, _⟩, _ => rfl | ⟨1, _⟩, hne => exact absurd rfl hne)
      (by show (j.val - 256) + 256 = j.val; omega)]
    exact v53_apply x0 x1 x2 x3 x4 b ⟨j.val - 256, hj2⟩

theorem lidx_v56 (b : Fin 8192) (o : Fin 32) (k : Fin 512) : lidx_main_v56 (ix2 b o) k = ix2 b k := by
  funext a; match a with | ⟨0, _⟩ => rfl | ⟨1, _⟩ => rfl
theorem idx_v55_r56 (b : Fin 8192) (o : Fin 32) (k : Fin 512) : idx_main_v55 (ridx_main_v56 (ix2 b o) k) = ix2 o k := by
  funext a; match a with | ⟨0, _⟩ => rfl | ⟨1, _⟩ => rfl
theorem idx_v57_v58 (b : Fin 8192) (o : Fin 32) : idx_main_v57 (idx_main_v58 (ix2 b o)) = ix1 o := by
  funext a; match a with | ⟨0, _⟩ => rfl

theorem v56_apply (b : Fin 8192) (o : Fin 32) :
    val_main_v56 (F := Ideal) x0 x1 x2 x3 x4 x5 (ix2 b o)
      = ∑ j : Fin 512, inputsRow (x2 (ix1 b)) (emb x3 x0 b) (emb x3 x1 b) x4 j * x5 (ix2 o j) := by
  rw [val_main_v56_apply]
  refine Finset.sum_congr rfl fun k _ => ?_
  rw [lidx_v56, v54_apply, val_main_v55_apply, idx_v55_r56]

/-- The first rectified layer. -/
theorem v60_apply (b : Fin 8192) (o : Fin 32) :
    val_main_v60 (F := Ideal) x0 x1 x2 x3 x4 x5 x6 (ix2 b o)
      = layer1Row (x2 (ix1 b)) (emb x3 x0 b) (emb x3 x1 b) x4 x5 x6 o := by
  rw [val_main_v60_apply, val_main_v59_apply, v56_apply, val_main_v58_apply, val_main_v57_apply, idx_v57_v58,
    val_main_call4_v0_apply, val_main_call4_cst_apply]
  rfl

theorem lidx_v62 (b : Fin 8192) (o : Fin 32) (k : Fin 32) : lidx_main_v62 (ix2 b o) k = ix2 b k := by
  funext a; match a with | ⟨0, _⟩ => rfl | ⟨1, _⟩ => rfl
theorem idx_v61_r62 (b : Fin 8192) (o : Fin 32) (k : Fin 32) : idx_main_v61 (ridx_main_v62 (ix2 b o) k) = ix2 o k := by
  funext a; match a with | ⟨0, _⟩ => rfl | ⟨1, _⟩ => rfl
theorem idx_v63_v64 (b : Fin 8192) (o : Fin 32) : idx_main_v63 (idx_main_v64 (ix2 b o)) = ix1 o := by
  funext a; match a with | ⟨0, _⟩ => rfl

theorem v62_apply (b : Fin 8192) (o : Fin 32) :
    val_main_v62 (F := Ideal) x0 x1 x2 x3 x4 x5 x6 x7 (ix2 b o)
      = ∑ j : Fin 32, layer1Row (x2 (ix1 b)) (emb x3 x0 b) (emb x3 x1 b) x4 x5 x6 j * x7 (ix2 o j) := by
  rw [val_main_v62_apply]
  refine Finset.sum_congr rfl fun k _ => ?_
  rw [lidx_v62, v60_apply, val_main_v61_apply, idx_v61_r62]

/-- The second rectified layer. -/
theorem v66_apply (b : Fin 8192) (o : Fin 32) :
    val_main_v66 (F := Ideal) x0 x1 x2 x3 x4 x5 x6 x7 x8 (ix2 b o)
      = layer2Row (x2 (ix1 b)) (emb x3 x0 b) (emb x3 x1 b) x4 x5 x6 x7 x8 o := by
  rw [val_main_v66_apply, val_main_v65_apply, v62_apply, val_main_v64_apply, val_main_v63_apply, idx_v63_v64,
    val_main_call5_v0_apply, val_main_call5_cst_apply]
  rfl

theorem lidx_v68 (b : Fin 8192) (k : Fin 32) : lidx_main_v68 (ix2 b 0) k = ix2 b k := by
  funext a; match a with | ⟨0, _⟩ => rfl | ⟨1, _⟩ => rfl
theorem idx_v67_r68 (b : Fin 8192) (k : Fin 32) : idx_main_v67 (ridx_main_v68 (ix2 b 0) k) = ix2 0 k := by
  funext a; match a with | ⟨0, _⟩ => rfl | ⟨1, _⟩ => rfl
theorem idx_v69_v70 (b : Fin 8192) : idx_main_v69 (idx_main_v70 (ix2 b 0)) = ix1 0 := by
  funext a; match a with | ⟨0, _⟩ => rfl
theorem idx_v72 (b : Fin 8192) : idx_main_v72 (ix1 b) = ix2 b 0 := by
  funext a; match a with | ⟨0, _⟩ => exact Fin.ext (Nat.div_one _) | ⟨1, _⟩ => rfl

theorem v68_apply (b : Fin 8192) :
    val_main_v68 (F := Ideal) x0 x1 x2 x3 x4 x5 x6 x7 x8 x9 (ix2 b 0)
      = ∑ j : Fin 32, layer2Row (x2 (ix1 b)) (emb x3 x0 b) (emb x3 x1 b) x4 x5 x6 x7 x8 j * x9 (ix2 0 j) := by
  rw [val_main_v68_apply]
  refine Finset.sum_congr rfl fun k _ => ?_
  rw [lidx_v68, v66_apply, val_main_v67_apply, idx_v67_r68]

/-- The output's pre-activation. -/
theorem v71_apply (b : Fin 8192) :
    val_main_v71 (F := Ideal) x0 x1 x2 x3 x4 x5 x6 x7 x8 x9 x10 (ix2 b 0)
      = logitRow (x2 (ix1 b)) (emb x3 x0 b) (emb x3 x1 b) x4 x5 x6 x7 x8 x9 x10 := by
  rw [val_main_v71_apply, v68_apply, val_main_v70_apply, val_main_v69_apply, idx_v69_v70]
  rfl

/-- The expanded sigmoid 1 / (1 + exp (-x)) of the pre-activation is the position's output. -/
theorem v78_apply (b : Fin 8192) :
    val_main_v78 (F := Ideal) x0 x1 x2 x3 x4 x5 x6 x7 x8 x9 x10 (ix1 b)
      = outRow (x2 (ix1 b)) (emb x3 x0 b) (emb x3 x1 b) x4 x5 x6 x7 x8 x9 x10 := by
  rw [val_main_v78_apply, val_main_v77_apply, val_main_cst_17_apply, val_main_v76_apply, val_main_v75_apply,
    val_main_cst_16_apply, val_main_v74_apply, val_main_v73_apply, val_main_v72_apply, idx_v72, v71_apply]
  rw [Ideal.hostDivf_def, Ideal.addf_def, Ideal.hostUnary_exp_def, Ideal.hostNegf_def, Ideal.negf_def, Ideal.ofBits_def,
    Ideal.ofBits_one_f32]
  rfl

end Net

/-- The reference's last stage is the specification. -/
theorem ref_result (x0 x1 : (⟨S8192x32, .i32⟩ : BufTy).Contents (Elt Ideal)) (x2 : (⟨S8192, .f32⟩ : BufTy).Contents (Elt Ideal))
    (x3 : (⟨S256x40960, .f32⟩ : BufTy).Contents (Elt Ideal)) (x4 : (⟨S256, .f32⟩ : BufTy).Contents (Elt Ideal))
    (x5 : (⟨S32x512, .f32⟩ : BufTy).Contents (Elt Ideal)) (x6 : (⟨S32, .f32⟩ : BufTy).Contents (Elt Ideal))
    (x7 : (⟨S32x32, .f32⟩ : BufTy).Contents (Elt Ideal)) (x8 : (⟨S32, .f32⟩ : BufTy).Contents (Elt Ideal))
    (x9 : (⟨S1x32, .f32⟩ : BufTy).Contents (Elt Ideal)) (x10 : (⟨S1, .f32⟩ : BufTy).Contents (Elt Ideal)) :
    Cert.ReferenceIdeal.Read.val_main_v78 (F := Ideal) x0 x1 x2 x3 x4 x5 x6 x7 x8 x9 x10
      = Cert.Nnue.result x0 x1 x2 x3 x4 x5 x6 x7 x8 x9 x10 := by
  funext i
  obtain ⟨b, rfl⟩ : ∃ b : Fin 8192, i = ix1 b := ⟨i 0, eq_ix1 i⟩
  exact v78_apply x0 x1 x2 x3 x4 x5 x6 x7 x8 x9 x10 b

end Cert.Nnue.Ref

end
-- ==== Proof.lean ====
/-
  The kernel and its reference compute one function of their arguments over the extended reals.

  Per position, each of the two feature lists selects table rows whose sum (over the list's non-negative entries,
  an entry past the table read as the last row) plus a bias is clipped to [0, 127]; the side to move mixes the two
  sides into 512 inputs of a network of two rectified layers of 32 and one output, whose logistic is the result.

  The reference gathers the selected rows and sums them under a 0/1 mask.  The kernel never gathers: for each block
  of 256 positions and each of ten runs of 4096 vocabulary entries it counts, per list and entry, how often the entry
  occurs in the list (entries clamped to [-1, 40959] beforehand, so that padding matches nothing), and multiplies the
  counts with the table's rows of that run.  A count times a table entry is the entry added that many times — on
  the extended reals a product distributes over a sum of non-negative factors — and a list entry that is a valid
  row matches exactly one vocabulary entry of exactly one run, so the two sums agree term by term; no finiteness of
  the arguments is used.  The network and the logistic are the same expressions on both sides.
-/
import proofs.«407513_j18287970746445_3_alg».proof.Defs
import proofs.«407513_j18287970746445_3_alg».proof.Proof.Gen.Kernel
import proofs.«407513_j18287970746445_3_alg».proof.Proof.Gen.Kernel.Skeleton
import proofs.«407513_j18287970746445_3_alg».proof.Proof.Gen.Kernel.Loops
import proofs.«407513_j18287970746445_3_alg».proof.Proof.Gen.Kernel.Launch
import proofs.«407513_j18287970746445_3_alg».proof.Proof.Gen.Kernel.Points
import proofs.«407513_j18287970746445_3_alg».proof.Proof.Gen.Kernel.Frame
import proofs.«407513_j18287970746445_3_alg».proof.Proof.Gen.KernelIdeal
import proofs.«407513_j18287970746445_3_alg».proof.Proof.Gen.KernelIdeal.Skeleton
import proofs.«407513_j18287970746445_3_alg».proof.Proof.Gen.KernelIdeal.Loops
import proofs.«407513_j18287970746445_3_alg».proof.Proof.Gen.KernelIdeal.Launch
import proofs.«407513_j18287970746445_3_alg».proof.Proof.Gen.KernelIdeal.Points
import proofs.«407513_j18287970746445_3_alg».proof.Proof.Gen.KernelIdeal.Frame
import proofs.«407513_j18287970746445_3_alg».proof.Proof.Gen.ReferenceIdeal
import proofs.«407513_j18287970746445_3_alg».proof.Proof.Gen.Pre_finite_inputs
import proofs.«407513_j18287970746445_3_alg».proof.Proof.Gen.ReferenceIdeal.Run
import proofs.«407513_j18287970746445_3_alg».proof.Proof.Gen.ReferenceIdeal.Read
import proofs.«407513_j18287970746445_3_alg».proof.Proof.KernelArray
import proofs.«407513_j18287970746445_3_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run, its result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the specification's array of the arguments, which agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.Nnue.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v78_eq, Cert.Nnue.Ref.ref_result, h0, h1, h2, h3, h4, h5, h6, h7, h8, h9, h10]
  all_goals rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
